-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S32x2048x2048 : Shape := ⟨3, ![32, 2048, 2048]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel
  bcast_S_S32x2048x2048 : S_.BroadcastsInDim S32x2048x2048 (![] : Fin 0 → Fin S32x2048x2048.rank)
  reducesTo_S32x2048x2048_S_d0_1_2 : S32x2048x2048.ReducesTo [0, 1, 2] S_

variable [Facts]

def fn_part1 {F : FTy → Type} [FloatOps F] (main_v13 : IVec S_ 1) (main_v16 : IVec S32x2048x2048 1) : IVec S_ 1 :=
  let main_c_5 : IVec S_ 1 := constantI S_ 1 1#1
  let main_v17 : IVec S_ 1 := (fun x v => Host.reduce IntOp.andi x v reducesTo_S32x2048x2048_S_d0_1_2 h_S_) main_v16 main_c_5
  let main_v18 : IVec S_ 1 := andi main_v13 main_v17
  main_v18

def fn {F : FTy → Type} [FloatOps F] (main_arg0 : FVec F S32x2048x64 .f32) (main_arg1 : FVec F S32x2048x64 .f32) (main_arg2 : FVec F S32x2048x64 .f32) (main_arg3 : FVec F S32x2048x2048 .f32) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  let main_v4 : FVec F S32x2048x64 .f32 := Host.absf main_arg1
  let main_cst_0 : FVec F S_ .f32 := constant S_ .f32 0x7F800000#32
  let main_v5 : FVec F S32x2048x64 .f32 := broadcastInDim S32x2048x64 ![] bcast_S_S32x2048x64 main_cst_0
  let main_v6 : IVec S32x2048x64 1 := cmpf .olt main_v4 main_v5
  let main_c_1 : IVec S_ 1 := constantI S_ 1 1#1
  let main_v7 : IVec S_ 1 := (fun x v => Host.reduce IntOp.andi x v reducesTo_S32x2048x64_S_d0_1_2 h_S_) main_v6 main_c_1
  let main_v8 : IVec S_ 1 := andi main_v3 main_v7
  let main_v9 : FVec F S32x2048x64 .f32 := Host.absf main_arg2
  let main_cst_2 : FVec F S_ .f32 := constant S_ .f32 0x7F800000#32
  let main_v10 : FVec F S32x2048x64 .f32 := broadcastInDim S32x2048x64 ![] bcast_S_S32x2048x64 main_cst_2
  let main_v11 : IVec S32x2048x64 1 := cmpf .olt main_v9 main_v10
  let main_c_3 : IVec S_ 1 := constantI S_ 1 1#1
  let main_v12 : IVec S_ 1 := (fun x v => Host.reduce IntOp.andi x v reducesTo_S32x2048x64_S_d0_1_2 h_S_) main_v11 main_c_3
  let main_v13 : IVec S_ 1 := andi main_v8 main_v12
  let main_v14 : FVec F S32x2048x2048 .f32 := Host.absf main_arg3
  let main_cst_4 : FVec F S_ .f32 := constant S_ .f32 0x7F800000#32
  let main_v15 : FVec F S32x2048x2048 .f32 := broadcastInDim S32x2048x2048 ![] bcast_S_S32x2048x2048 main_cst_4
  let main_v16 : IVec S32x2048x2048 1 := cmpf .olt main_v14 main_v15
  fn_part1 (F := F) main_v13 main_v16
-- ==== Kernel.lean ====
abbrev S32x2048x64 : Shape := ⟨3, ![32, 2048, 64]⟩
abbrev S32x2048x2048 : Shape := ⟨3, ![32, 2048, 2048]⟩
abbrev S1x2048x64 : Shape := ⟨3, ![1, 2048, 64]⟩
abbrev S1x512x64 : Shape := ⟨3, ![1, 512, 64]⟩
abbrev S1x2048x512 : Shape := ⟨3, ![1, 2048, 512]⟩
abbrev S2048x1 : Shape := ⟨2, ![2048, 1]⟩
abbrev S2048x64 : Shape := ⟨2, ![2048, 64]⟩
abbrev S512x64 : Shape := ⟨2, ![512, 64]⟩
abbrev S2048x512 : Shape := ⟨2, ![2048, 512]⟩
abbrev S2048 : Shape := ⟨1, ![2048]⟩

abbrev nBuf : Space → Nat
  | .hbm => 5
  | .vmem => 14
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x2048, .f32⟩
  | .hbm, ⟨4, _⟩ => ⟨S32x2048x64, .f32⟩
  | .local _ .vmem, ⟨0, _⟩ => ⟨S1x2048x64, .f32⟩
  | .local _ .vmem, ⟨1, _⟩ => ⟨S1x2048x64, .f32⟩
  | .local _ .vmem, ⟨2, _⟩ => ⟨S1x512x64, .f32⟩
  | .local _ .vmem, ⟨3, _⟩ => ⟨S1x512x64, .f32⟩
  | .local _ .vmem, ⟨4, _⟩ => ⟨S1x512x64, .f32⟩
  | .local _ .vmem, ⟨5, _⟩ => ⟨S1x512x64, .f32⟩
  | .local _ .vmem, ⟨6, _⟩ => ⟨S1x2048x512, .f32⟩
  | .local _ .vmem, ⟨7, _⟩ => ⟨S1x2048x512, .f32⟩
  | .local _ .vmem, ⟨8, _⟩ => ⟨S1x2048x64, .f32⟩
  | .local _ .vmem, ⟨9, _⟩ => ⟨S1x2048x64, .f32⟩
  | .local _ .vmem, ⟨10, _⟩ => ⟨S2048x1, .f32⟩
  | .local _ .vmem, ⟨11, _⟩ => ⟨S2048x1, .f32⟩
  | .local _ .vmem, ⟨12, _⟩ => ⟨S2048x64, .f32⟩
  | .local _ .vmem, ⟨13, _⟩ => ⟨S2048x64, .bf16⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v44 : BitVec 1 := Scalar.cmpi .eq arg1 c3_i32
  let v45 : BitVec 32 := Scalar.extui v44
  let c0_i32_28 : BitVec 32 := 0#32
  let v46 : BitVec 1 := Scalar.cmpi .ne v45 c0_i32_28
  v46

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  packedbf16_S2048x64_S2048x64_0_0 : (Rect.unit (s := S2048x64) ![0, 0] S2048x64.size inb_S2048x64_S2048x64_0_0).PackedRows (EltTy.packing .bf16)
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  reduces_S2048x512_S2048 : S2048x512.Reduces [1] S2048
  shapeCasts_S2048_S2048x1 : S2048.ShapeCasts S2048x1
  broadcasts_S2048x1_S2048x512 : S2048x1.Broadcasts S2048x512
  broadcasts_S2048x1_S2048x64 : S2048x1.Broadcasts S2048x64
  shapeCasts_S2048x64_S1x2048x64 : S2048x64.ShapeCasts S1x2048x64
  dot_S2048x64_S512x64_S2048x512_1_1_0_0_n_n_wf : DotDims.WF S2048x64 S512x64 S2048x512 [1] [1] [0] [0] [] []
  dot_S2048x512_S512x64_S2048x64_1_0_0_1_n_n_wf : DotDims.WF S2048x512 S512x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S32x2048x64.size a
  hwx0_0 : ∀ i : grid0.Coords, EltTy.bits .f32 = 32 ∨ (Rect.block (s := S32x2048x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x64.size a ≤ S32x2048x64.size a
  hwx0_1 : ∀ i : grid0.Coords, EltTy.bits .f32 = 32 ∨ (Rect.block (s := S32x2048x64) S1x512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x64.size a ≤ S32x2048x64.size a
  hwx0_2 : ∀ i : grid0.Coords, EltTy.bits .f32 = 32 ∨ (Rect.block (s := S32x2048x64) S1x512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S32x2048x2048.size a
  hwx0_3 : ∀ i : grid0.Coords, EltTy.bits .f32 = 32 ∨ (Rect.block (s := S32x2048x2048) S1x2048x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x64.size a ≤ S32x2048x64.size a
  hwx0_4 : ∀ i : grid0.Coords, EltTy.bits .f32 = 32 ∨ (Rect.block (s := S32x2048x64) S1x2048x64.size (cc0_transform_4 i) (hinb0_4 i)).WholeWords (EltTy.packing .f32)

variable [Facts₀]

def dot_S2048x64_S512x64_S2048x512_1_1_0_0_n_n : DotDims S2048x64 S512x64 S2048x512 where
  lhsContracting := [1]
  rhsContracting := [1]
  lhsNonContracting := [0]
  rhsNonContracting := [0]
  lhsBatch := []
  rhsBatch := []
  wf := dot_S2048x64_S512x64_S2048x512_1_1_0_0_n_n_wf
def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf

abbrev win0_0 : Pipeline.Window sig grid0 :=
  Pipeline.Window.ofSpec (Memref.whole main_arg0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x2048x64 : Shape := ⟨3, ![32, 2048, 64]⟩
abbrev S32x2048x2048 : Shape := ⟨3, ![32, 2048, 2048]⟩
abbrev S_ : Shape := ⟨0, ![]⟩
abbrev S32x2048 : Shape := ⟨2, ![32, 2048]⟩
abbrev S32x2048x1 : Shape := ⟨3, ![32, 2048, 1]⟩

abbrev nBuf : Space → Nat
  | .hbm => 24
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x2048, .f32⟩
  | .hbm, ⟨4, _⟩ => ⟨S32x2048x2048, .f32⟩
  | .hbm, ⟨5, _⟩ => ⟨S_, .f32⟩
  | .hbm, ⟨6, _⟩ => ⟨S32x2048x2048, .f32⟩
  | .hbm, ⟨7, _⟩ => ⟨S32x2048x2048, .f32⟩
  | .hbm, ⟨8, _⟩ => ⟨S32x2048x2048, .f32⟩
  | .hbm, ⟨9, _⟩ => ⟨S_, .f32⟩
  | .hbm, ⟨10, _⟩ => ⟨S32x2048, .f32⟩
  | .hbm, ⟨11, _⟩ => ⟨S_, .f32⟩
  | .hbm, ⟨12, _⟩ => ⟨S32x2048, .f32⟩
  | .hbm, ⟨13, _⟩ => ⟨S32x2048, .f32⟩
  | .hbm, ⟨14, _⟩ => ⟨S32x2048x1, .f32⟩
  | .hbm, ⟨15, _⟩ => ⟨S32x2048x2048, .f32⟩
  | .hbm, ⟨16, _⟩ => ⟨S32x2048x2048, .f32⟩
  | .hbm, ⟨17, _⟩ => ⟨S32x2048x2048, .f32⟩
  | .hbm, ⟨18, _⟩ => ⟨S_, .f32⟩
  | .hbm, ⟨19, _⟩ => ⟨S32x2048, .f32⟩
  | .hbm, ⟨20, _⟩ => ⟨S32x2048x1, .f32⟩
  | .hbm, ⟨21, _⟩ => ⟨S32x2048x2048, .f32⟩
  | .hbm, ⟨22, _⟩ => ⟨S32x2048x2048, .f32⟩
  | .hbm, ⟨23, _⟩ => ⟨S32x2048x64, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S_S32x2048x2048 : S_.BroadcastsInDim S32x2048x2048 (![] : Fin 0 → Fin S32x2048x2048.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  dot_S32x2048x64_S32x2048x64_S32x2048x2048_2_2_1_1_0_0_wf : DotDims.WF S32x2048x64 S32x2048x64 S32x2048x2048 [2] [2] [1] [1] [0] [0]
  dot_S32x2048x2048_S32x2048x64_S32x2048x64_2_1_1_2_0_0_wf : DotDims.WF S32x2048x2048 S32x2048x64 S32x2048x64 [2] [1] [1] [2] [0] [0]

variable [Facts₀]

def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x64_S32x2048x64_2_1_1_2_0_0 : DotDims S32x2048x2048 S32x2048x64 S32x2048x64 where
  lhsContracting := [2]
  rhsContracting := [1]
  lhsNonContracting := [1]
  rhsNonContracting := [2]
  lhsBatch := [0]
  rhsBatch := [0]
  wf := dot_S32x2048x2048_S32x2048x64_S32x2048x64_2_1_1_2_0_0_wf

class Facts : Prop extends Facts₀ where

variable [Facts]
-- ==== Proof.Pieces.lean ====
/-
  What each grid point leaves behind, as the body's stored values applied to what the point read.

  A point of a middle or last key tile reads the key, value and mask blocks and the four kept buffers — the shift
  `m`, the sum of weights `l`, the weighted sums `acc` and the scaled queries `q~` — and leaves: the new shift
  `max m (rowmax s)`; `a * l + rowsum p`; `a * acc + p · v`; the scaled queries untouched; with `s` the masked scores
  of the tile, `a = exp (m - m')` and `p = exp (s - m')`. The last tile also leaves the quotient `acc' / l'` of the
  values it has just stored in the output block. A point of the first key tile first resets the kept buffers (the
  start shift, zero, zero, the queries times 1/8) and then does the same over the values it has just stored.
-/
import proofs.«421783_j40716289966518_3_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]
variable (c : Dev nD) (i : grid0.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x512 .f32) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (arg10 : Memref sig .tc .vmem S2048x64 .bf16) (harg10 : arg10.IsWhole)
variable (x0 : Vec F S1x2048x64 .f32) (x1 x2 : Vec F S1x512x64 .f32) (x3 : Vec F S1x2048x512 .f32)
  (xs0 xs1 : Vec F S2048x1 .f32) (xs2 : Vec F S2048x64 .f32) (xs3 : Vec F S2048x64 .bf16)

/-- A rank-2 buffer read or stored whole starts at offset zero on both axes. -/
theorem hz2 : (![0, 0] : Fin 2 → Nat) = fun _ => 0 := funext fun a => by fin_cases a <;> rfl
/-- A rank-3 buffer read or stored whole starts at offset zero on all three axes. -/
theorem hz3 : (![0, 0, 0] : Fin 3 → Nat) = fun _ => 0 := funext fun a => by fin_cases a <;> rfl

/-! ## Case B -/

/-- The new shift after a middle tile. -/
theorem sB0 (hc0 : ¬cond0_0 i) (hc1 : ¬cond0_1 i) :
    sout0_B_0 c i arg2 harg2 arg3 harg3 arg4 harg4 arg5 harg5 arg6 harg6 arg7 harg7 arg8 harg8 arg9 harg9 arg10 harg10 hc0 hc1 x0 x1 x2 x3 xs0 xs1 xs2 xs3 = k0_pay2 (k0_pay9 x1 xs3 x3 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero hz2]
  simp only [View.readAt_eq_ld, harg2.read_unread, harg3.read_unread, harg4.read_unread, harg5.read_unread, harg7.read_unread, harg8.read_unread, harg9.read_unread, harg10.read_unread,
    View.ld_unit_zero (S := S1x2048x64) hz3, View.ld_unit_zero (S := S1x512x64) hz3, View.ld_unit_zero (S := S1x2048x512) hz3,
    View.ld_unit_zero (S := S2048x1) hz2, View.ld_unit_zero (S := S2048x64) hz2,
    View.readCov_unit_zero (S := S2048x1) _ hz2, View.readCov_unit_zero (S := S2048x64) _ hz2]

/-- The kept sum of weights after a middle tile. -/
theorem sB1 (hc0 : ¬cond0_0 i) (hc1 : ¬cond0_1 i) :
    sout0_B_1 c i arg2 harg2 arg3 harg3 arg4 harg4 arg5 harg5 arg6 harg6 arg7 harg7 arg8 harg8 arg9 harg9 arg10 harg10 hc0 hc1 x0 x1 x2 x3 xs0 xs1 xs2 xs3 = k0_pay12 x1 xs3 x3 xs0 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero hz2]
  simp only [View.readAt_eq_ld, harg2.read_unread, harg3.read_unread, harg4.read_unread, harg5.read_unread, harg7.read_unread, harg8.read_unread, harg9.read_unread, harg10.read_unread,
    View.ld_unit_zero (S := S1x2048x64) hz3, View.ld_unit_zero (S := S1x512x64) hz3, View.ld_unit_zero (S := S1x2048x512) hz3,
    View.ld_unit_zero (S := S2048x1) hz2, View.ld_unit_zero (S := S2048x64) hz2,
    View.readCov_unit_zero (S := S2048x1) _ hz2, View.readCov_unit_zero (S := S2048x64) _ hz2]

/-- The kept weighted sums after a middle tile. -/
theorem sB2 (hc0 : ¬cond0_0 i) (hc1 : ¬cond0_1 i) :
    sout0_B_2 c i arg2 harg2 arg3 harg3 arg4 harg4 arg5 harg5 arg6 harg6 arg7 harg7 arg8 harg8 arg9 harg9 arg10 harg10 hc0 hc1 x0 x1 x2 x3 xs0 xs1 xs2 xs3
      = k0_pay1 (k0_pay10 x1 xs3 x3 xs0 xs0) (k0_pay11 x1 xs3 x3 xs0) (k0_pay13 x2) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero hz2]
  simp only [View.readAt_eq_ld, harg2.read_unread, harg3.read_unread, harg4.read_unread, harg5.read_unread, harg7.read_unread, harg8.read_unread, harg9.read_unread, harg10.read_unread,
    View.ld_unit_zero (S := S1x2048x64) hz3, View.ld_unit_zero (S := S1x512x64) hz3, View.ld_unit_zero (S := S1x2048x512) hz3,
    View.ld_unit_zero (S := S2048x1) hz2, View.ld_unit_zero (S := S2048x64) hz2,
    View.readCov_unit_zero (S := S2048x1) _ hz2, View.readCov_unit_zero (S := S2048x64) _ hz2]

/-- A middle tile leaves the scaled queries as they were. -/
theorem sB3 (hc0 : ¬cond0_0 i) (hc1 : ¬cond0_1 i) :
    sout0_B_3 c i arg2 harg2 arg3 harg3 arg4 harg4 arg5 harg5 arg6 harg6 arg7 harg7 arg8 harg8 arg9 harg9 arg10 harg10 hc0 hc1 x0 x1 x2 x3 xs0 xs1 xs2 xs3 = xs3 := rfl

/-! ## Case C -/

/-- The new shift after the last tile. -/
theorem sC0 (hc0 : ¬cond0_0 i) (hc1 : cond0_1 i) :
    sout0_C_0 c i arg2 harg2 arg3 harg3 arg4 harg4 arg5 harg5 arg6 harg6 arg7 harg7 arg8 harg8 arg9 harg9 arg10 harg10 hc0 hc1 x0 x1 x2 x3 xs0 xs1 xs2 xs3 = k0_pay2 (k0_pay9 x1 xs3 x3 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz2]
  simp only [View.readAt_eq_ld, harg2.read_unread, harg3.read_unread, harg4.read_unread, harg5.read_unread, harg7.read_unread, harg8.read_unread, harg9.read_unread, harg10.read_unread,
    View.ld_unit_zero (S := S1x2048x64) hz3, View.ld_unit_zero (S := S1x512x64) hz3, View.ld_unit_zero (S := S1x2048x512) hz3,
    View.ld_unit_zero (S := S2048x1) hz2, View.ld_unit_zero (S := S2048x64) hz2,
    View.readCov_unit_zero (S := S2048x1) _ hz2, View.readCov_unit_zero (S := S2048x64) _ hz2]

/-- The kept sum of weights after the last tile. -/
theorem sC1 (hc0 : ¬cond0_0 i) (hc1 : cond0_1 i) :
    sout0_C_1 c i arg2 harg2 arg3 harg3 arg4 harg4 arg5 harg5 arg6 harg6 arg7 harg7 arg8 harg8 arg9 harg9 arg10 harg10 hc0 hc1 x0 x1 x2 x3 xs0 xs1 xs2 xs3 = k0_pay12 x1 xs3 x3 xs0 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz2]
  simp only [View.readAt_eq_ld, harg2.read_unread, harg3.read_unread, harg4.read_unread, harg5.read_unread, harg7.read_unread, harg8.read_unread, harg9.read_unread, harg10.read_unread,
    View.ld_unit_zero (S := S1x2048x64) hz3, View.ld_unit_zero (S := S1x512x64) hz3, View.ld_unit_zero (S := S1x2048x512) hz3,
    View.ld_unit_zero (S := S2048x1) hz2, View.ld_unit_zero (S := S2048x64) hz2,
    View.readCov_unit_zero (S := S2048x1) _ hz2, View.readCov_unit_zero (S := S2048x64) _ hz2]

/-- The kept weighted sums after the last tile. -/
theorem sC2 (hc0 : ¬cond0_0 i) (hc1 : cond0_1 i) :
    sout0_C_2 c i arg2 harg2 arg3 harg3 arg4 harg4 arg5 harg5 arg6 harg6 arg7 harg7 arg8 harg8 arg9 harg9 arg10 harg10 hc0 hc1 x0 x1 x2 x3 xs0 xs1 xs2 xs3
      = k0_pay1 (k0_pay10 x1 xs3 x3 xs0 xs0) (k0_pay11 x1 xs3 x3 xs0) (k0_pay13 x2) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz2]
  simp only [View.readAt_eq_ld, harg2.read_unread, harg3.read_unread, harg4.read_unread, harg5.read_unread, harg7.read_unread, harg8.read_unread, harg9.read_unread, harg10.read_unread,
    View.ld_unit_zero (S := S1x2048x64) hz3, View.ld_unit_zero (S := S1x512x64) hz3, View.ld_unit_zero (S := S1x2048x512) hz3,
    View.ld_unit_zero (S := S2048x1) hz2, View.ld_unit_zero (S := S2048x64) hz2,
    View.readCov_unit_zero (S := S2048x1) _ hz2, View.readCov_unit_zero (S := S2048x64) _ hz2]

/-- The last tile leaves the scaled queries as they were. -/
theorem sC3 (hc0 : ¬cond0_0 i) (hc1 : cond0_1 i) :
    sout0_C_3 c i arg2 harg2 arg3 harg3 arg4 harg4 arg5 harg5 arg6 harg6 arg7 harg7 arg8 harg8 arg9 harg9 arg10 harg10 hc0 hc1 x0 x1 x2 x3 xs0 xs1 xs2 xs3 = xs3 := rfl

/-- The output block after the last tile: the weighted sums just stored, divided by the sum of weights just stored. -/
theorem oC4 (hc0 : ¬cond0_0 i) (hc1 : cond0_1 i) :
    out0_C_4 c i arg2 harg2 arg3 harg3 arg4 harg4 arg5 harg5 arg6 harg6 arg7 harg7 arg8 harg8 arg9 harg9 arg10 harg10 hc0 hc1 x0 x1 x2 x3 xs0 xs1 xs2 xs3
      = k0_pay3 (k0_pay1 (k0_pay10 x1 xs3 x3 xs0 xs0) (k0_pay11 x1 xs3 x3 xs0) (k0_pay13 x2) xs2) (k0_pay12 x1 xs3 x3 xs0 xs0 xs1) := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz3]
  simp only [View.readAt_eq_ld, harg2.read_unread, harg3.read_unread, harg4.read_unread, harg5.read_unread, harg7.read_unread, harg8.read_unread, harg9.read_unread, harg10.read_unread,
    View.ld_unit_zero (S := S1x2048x64) hz3, View.ld_unit_zero (S := S1x512x64) hz3, View.ld_unit_zero (S := S1x2048x512) hz3,
    View.ld_unit_zero (S := S2048x1) hz2, View.ld_unit_zero (S := S2048x64) hz2,
    View.readCov_unit_zero (S := S2048x1) _ hz2, View.readCov_unit_zero (S := S2048x64) _ hz2]

/-! ## Case A -/

/-- The new shift after the first tile: the step taken from the start shift. -/
theorem sA0 (hc0 : cond0_0 i) (hc1 : ¬cond0_1 i) :
    sout0_A_0 c i arg2 harg2 arg3 harg3 arg4 harg4 arg5 harg5 arg6 harg6 arg7 harg7 arg8 harg8 arg9 harg9 arg10 harg10 hc0 hc1 x0 x1 x2 x3 = k0_pay2 (k0_pay9 x1 (k0_pay7 x0) x3 (k0_pay4 (F := F))) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S2048x1) hz2]
  simp only [View.readAt_eq_ld, harg2.read_unread, harg3.read_unread, harg4.read_unread, harg5.read_unread, harg7.read_unread, harg8.read_unread, harg9.read_unread, harg10.read_unread,
    View.ld_unit_zero (S := S1x2048x64) hz3, View.ld_unit_zero (S := S1x512x64) hz3, View.ld_unit_zero (S := S1x2048x512) hz3,
    View.ld_unit_zero (S := S2048x1) hz2, View.ld_unit_zero (S := S2048x64) hz2,
    View.readCov_unit_zero (S := S2048x1) _ hz2, View.readCov_unit_zero (S := S2048x64) _ hz2]

/-- The kept sum of weights after the first tile: the step taken from zero. -/
theorem sA1 (hc0 : cond0_0 i) (hc1 : ¬cond0_1 i) :
    sout0_A_1 c i arg2 harg2 arg3 harg3 arg4 harg4 arg5 harg5 arg6 harg6 arg7 harg7 arg8 harg8 arg9 harg9 arg10 harg10 hc0 hc1 x0 x1 x2 x3 = k0_pay12 x1 (k0_pay7 x0) x3 (k0_pay4 (F := F)) (k0_pay4 (F := F)) (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S2048x1) hz2]
  simp only [View.readAt_eq_ld, harg2.read_unread, harg3.read_unread, harg4.read_unread, harg5.read_unread, harg7.read_unread, harg8.read_unread, harg9.read_unread, harg10.read_unread,
    View.ld_unit_zero (S := S1x2048x64) hz3, View.ld_unit_zero (S := S1x512x64) hz3, View.ld_unit_zero (S := S1x2048x512) hz3,
    View.ld_unit_zero (S := S2048x1) hz2, View.ld_unit_zero (S := S2048x64) hz2,
    View.readCov_unit_zero (S := S2048x1) _ hz2, View.readCov_unit_zero (S := S2048x64) _ hz2]

/-- The kept weighted sums after the first tile: the step taken from zero. -/
theorem sA2 (hc0 : cond0_0 i) (hc1 : ¬cond0_1 i) :
    sout0_A_2 c i arg2 harg2 arg3 harg3 arg4 harg4 arg5 harg5 arg6 harg6 arg7 harg7 arg8 harg8 arg9 harg9 arg10 harg10 hc0 hc1 x0 x1 x2 x3
      = k0_pay1 (k0_pay10 x1 (k0_pay7 x0) x3 (k0_pay4 (F := F)) (k0_pay4 (F := F))) (k0_pay11 x1 (k0_pay7 x0) x3 (k0_pay4 (F := F))) (k0_pay13 x2) (k0_pay6 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S2048x64) hz2]
  simp only [View.readAt_eq_ld, harg2.read_unread, harg3.read_unread, harg4.read_unread, harg5.read_unread, harg7.read_unread, harg8.read_unread, harg9.read_unread, harg10.read_unread,
    View.ld_unit_zero (S := S1x2048x64) hz3, View.ld_unit_zero (S := S1x512x64) hz3, View.ld_unit_zero (S := S1x2048x512) hz3,
    View.ld_unit_zero (S := S2048x1) hz2, View.ld_unit_zero (S := S2048x64) hz2,
    View.readCov_unit_zero (S := S2048x1) _ hz2, View.readCov_unit_zero (S := S2048x64) _ hz2]

/-- The first tile stores the queries times 1/8. -/
theorem sA3 (hc0 : cond0_0 i) (hc1 : ¬cond0_1 i) :
    sout0_A_3 c i arg2 harg2 arg3 harg3 arg4 harg4 arg5 harg5 arg6 harg6 arg7 harg7 arg8 harg8 arg9 harg9 arg10 harg10 hc0 hc1 x0 x1 x2 x3 = k0_pay7 x0 := by
  unfold sout0_A_3
  rw [View.read_writes_eq_canon _ _ _ (scover0_A_3 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_unit_zero hz2]
  simp only [View.readAt_eq_ld, harg2.read_unread, harg3.read_unread, harg4.read_unread, harg5.read_unread, harg7.read_unread, harg8.read_unread, harg9.read_unread, harg10.read_unread,
    View.ld_unit_zero (S := S1x2048x64) hz3, View.ld_unit_zero (S := S1x512x64) hz3, View.ld_unit_zero (S := S1x2048x512) hz3,
    View.ld_unit_zero (S := S2048x1) hz2, View.ld_unit_zero (S := S2048x64) hz2,
    View.readCov_unit_zero (S := S2048x1) _ hz2, View.readCov_unit_zero (S := S2048x64) _ hz2]

end Cert.KernelIdeal.Pieces

end
-- ==== Proof.SoftmaxLaw.lean ====
/-
  The real-number side of attention with an online softmax.

  For one query row, with scores `s c` and values `v c` over the 2048 keys, the softmax-weighted sum
  `(∑ c, exp (s c) * v c) / (∑ c, exp (s c))` is unchanged when every score is shifted by one real `μ`: numerator and
  denominator are both multiplied by the positive factor `exp (-μ)` (`ratio_shift`), and the same holds for the sum of
  the normalised weights `exp (s c - M) / ∑ j, exp (s j - M)` against the values (`weights_shift`). The online form
  visits the keys in four tiles of 512 and keeps, for the keys seen so far, a shift `μ`, the sum `∑ exp (s c - μ)` and the
  weighted sums `∑ exp (s c - μ) * v c`; moving to a new shift `μ'` multiplies what was kept by `exp (μ - μ')`
  (`carry`, `carry_one`). Which shift is kept never matters, only that it is a real number.
-/
import Idealize.ShloMosaic.PureOps.Ideal

noncomputable section

namespace Cert.SoftmaxLaw

open Finset

/-! ## Keys, tiles and points -/

/-- The key that entry `c'` of key tile `j` holds, `512 * j + c'`; reduced modulo 2048 so that it is a total function. -/
def key (j : ℕ) (c' : Fin 512) : Fin 2048 := ⟨(512 * j + c'.val) % 2048, Nat.mod_lt _ (by norm_num)⟩

theorem key_val (j : ℕ) (hj : j < 4) (c' : Fin 512) : (key j c').val = 512 * j + c'.val := by
  have := c'.isLt
  show (512 * j + c'.val) % 2048 = _
  exact Nat.mod_eq_of_lt (by omega)

/-- The batch-head that grid point `t` works on, `t / 4`; reduced modulo 32 so that it is a total function. -/
def bh (t : ℕ) : Fin 32 := ⟨(t / 4) % 32, Nat.mod_lt _ (by norm_num)⟩

theorem bh_val (t : ℕ) (ht : t < 128) : (bh t).val = t / 4 := by
  show (t / 4) % 32 = _
  exact Nat.mod_eq_of_lt (by omega)

/-- The sum of `f` over the keys below `n`. -/
def below (n : ℕ) (f : Fin 2048 → ℝ) : ℝ := ∑ c ∈ univ.filter (fun c : Fin 2048 => c.val < n), f c

theorem below_zero (f : Fin 2048 → ℝ) : below 0 f = 0 := by
  unfold below
  simp

theorem below_all (f : Fin 2048 → ℝ) : below 2048 f = ∑ c, f c := by
  unfold below
  rw [Finset.filter_true_of_mem (fun c _ => c.isLt)]

/-- The keys below `512 * (j + 1)` are the keys below `512 * j` and the 512 keys of tile `j`. -/
theorem below_add_tile (j : ℕ) (hj : j < 4) (f : Fin 2048 → ℝ) :
    below (512 * (j + 1)) f = below (512 * j) f + ∑ c' : Fin 512, f (key j c') := by
  unfold below
  -- the tile's keys are pairwise different
  have hinj : Function.Injective (key j) := by
    intro a b h
    have hv := congrArg Fin.val h
    rw [key_val j hj, key_val j hj] at hv
    exact Fin.ext (by omega)
  -- a key below `512 * (j + 1)` is below `512 * j` or is `512 * j + c'` for one `c' < 512`
  have hsplit : univ.filter (fun c : Fin 2048 => c.val < 512 * (j + 1))
      = univ.filter (fun c : Fin 2048 => c.val < 512 * j) ∪ univ.image (key j) := by
    ext c
    simp only [mem_filter, mem_univ, true_and, mem_union, mem_image]
    constructor
    · intro h
      by_cases hc : c.val < 512 * j
      · exact Or.inl hc
      · right
        refine ⟨⟨c.val - 512 * j, by omega⟩, ?_⟩
        apply Fin.ext
        rw [key_val j hj]
        show 512 * j + (c.val - 512 * j) = c.val
        omega
    · rintro (h | ⟨c', rfl⟩)
      · omega
      · rw [key_val j hj]
        have := c'.isLt
        omega
  -- and the two parts do not meet
  have hdisj : Disjoint (univ.filter (fun c : Fin 2048 => c.val < 512 * j)) (univ.image (key j)) := by
    rw [Finset.disjoint_left]
    intro c hc hc'
    simp only [mem_filter, mem_univ, true_and] at hc
    simp only [mem_image, mem_univ, true_and] at hc'
    obtain ⟨c', rfl⟩ := hc'
    rw [key_val j hj] at hc
    omega
  rw [hsplit, Finset.sum_union hdisj, Finset.sum_image (fun a _ b _ h => hinj h)]

/-! ## Carrying the kept sums to a new shift -/

theorem carry (j : ℕ) (hj : j < 4) (s w : Fin 2048 → ℝ) (μ μ' : ℝ) :
    Real.exp (μ - μ') * below (512 * j) (fun c => Real.exp (s c - μ) * w c)
        + ∑ c' : Fin 512, Real.exp (s (key j c') - μ') * w (key j c')
      = below (512 * (j + 1)) (fun c => Real.exp (s c - μ') * w c) := by
  rw [below_add_tile j hj]
  -- `exp (μ - μ') * exp (s c - μ) = exp (s c - μ')`, term by term
  have h : Real.exp (μ - μ') * below (512 * j) (fun c => Real.exp (s c - μ) * w c)
      = below (512 * j) (fun c => Real.exp (s c - μ') * w c) := by
    unfold below
    rw [Finset.mul_sum]
    refine Finset.sum_congr rfl (fun c _ => ?_)
    rw [← mul_assoc, ← Real.exp_add]
    congr 2
    ring
  rw [h]

theorem carry_one (j : ℕ) (hj : j < 4) (s : Fin 2048 → ℝ) (μ μ' : ℝ) :
    Real.exp (μ - μ') * below (512 * j) (fun c => Real.exp (s c - μ))
        + ∑ c' : Fin 512, Real.exp (s (key j c') - μ')
      = below (512 * (j + 1)) (fun c => Real.exp (s c - μ')) := by
  have h := carry j hj s (fun _ => 1) μ μ'
  simpa only [mul_one] using h

/-! ## The shift does not matter -/

theorem sum_exp_pos (s : Fin 2048 → ℝ) : 0 < ∑ c, Real.exp (s c) := by
  exact Finset.sum_pos (fun c _ => Real.exp_pos _) ⟨⟨0, by norm_num⟩, mem_univ _⟩

theorem ratio_shift (s v : Fin 2048 → ℝ) (μ : ℝ) :
    (∑ c, Real.exp (s c - μ) * v c) / (∑ c, Real.exp (s c - μ))
      = (∑ c, Real.exp (s c) * v c) / (∑ c, Real.exp (s c)) := by
  -- numerator and denominator both carry the factor `exp (-μ)`
  have hn : ∑ c, Real.exp (s c - μ) * v c = Real.exp (-μ) * ∑ c, Real.exp (s c) * v c := by
    rw [Finset.mul_sum]
    refine Finset.sum_congr rfl (fun c _ => ?_)
    rw [sub_eq_add_neg, Real.exp_add]
    ring
  have hd : ∑ c, Real.exp (s c - μ) = Real.exp (-μ) * ∑ c, Real.exp (s c) := by
    rw [Finset.mul_sum]
    refine Finset.sum_congr rfl (fun c _ => ?_)
    rw [sub_eq_add_neg, Real.exp_add]
    ring
  rw [hn, hd]
  exact mul_div_mul_left _ _ (Real.exp_pos _).ne'

theorem weights_shift (s v : Fin 2048 → ℝ) (M : ℝ) :
    ∑ c, Real.exp (s c - M) / (∑ j, Real.exp (s j - M)) * v c
      = (∑ c, Real.exp (s c) * v c) / (∑ c, Real.exp (s c)) := by
  -- the common denominator comes out of the sum
  have h : ∑ c, Real.exp (s c - M) / (∑ j, Real.exp (s j - M)) * v c
      = (∑ c, Real.exp (s c - M) * v c) / (∑ j, Real.exp (s j - M)) := by
    rw [Finset.sum_div]
    refine Finset.sum_congr rfl (fun c _ => ?_)
    ring
  rw [h, ratio_shift]

/-! ## One tile's scores and the new shift -/

/-- The masked scores of one key tile: row `r` of the (already scaled) queries against key `c'` of the tile, times the mask. -/
def tscore (qR : Fin 2048 → Fin 64 → ℝ) (kR : Fin 512 → Fin 64 → ℝ) (mR : Fin 2048 → Fin 512 → ℝ)
    (r : Fin 2048) (c' : Fin 512) : ℝ :=
  (∑ d, qR r d * kR c' d) * mR r c'

/-- The shift after a tile: the larger of the old shift and the tile's largest score in the row. -/
def newMax (μO : Fin 2048 → ℝ) (sT : Fin 2048 → Fin 512 → ℝ) (r : Fin 2048) : ℝ :=
  max (μO r) (univ.sup' ⟨(0 : Fin 512), mem_univ _⟩ (sT r))

/-! ## Attention over real arrays -/

/-- The masked, scaled score of query row `r` against key `c` in batch-head `b`. -/
def score (q k : Fin 32 → Fin 2048 → Fin 64 → ℝ) (mk : Fin 32 → Fin 2048 → Fin 2048 → ℝ)
    (b : Fin 32) (r c : Fin 2048) : ℝ :=
  (∑ d, q b r d * k b c d) * (1 / 8) * mk b r c

/-- Scaling the queries first gives the same score. -/
theorem score_scaled_first (q k : Fin 32 → Fin 2048 → Fin 64 → ℝ) (mk : Fin 32 → Fin 2048 → Fin 2048 → ℝ)
    (b : Fin 32) (r c : Fin 2048) :
    (∑ d, q b r d * (1 / 8) * k b c d) * mk b r c = score q k mk b r c := by
  unfold score
  congr 1
  rw [Finset.sum_mul]
  refine Finset.sum_congr rfl (fun d _ => ?_)
  ring

/-- Softmax attention, written with shift zero. -/
def attn (q k v : Fin 32 → Fin 2048 → Fin 64 → ℝ) (mk : Fin 32 → Fin 2048 → Fin 2048 → ℝ)
    (b : Fin 32) (r : Fin 2048) (d : Fin 64) : ℝ :=
  (∑ c, Real.exp (score q k mk b r c) * v b c d) / (∑ c, Real.exp (score q k mk b r c))

end Cert.SoftmaxLaw

end
-- ==== Proof.Blocks.lean ====
/-
  What the four input windows hold at grid point `t`. The grid is (32 batch-heads) × (4 key tiles), points numbered
  row-major, so point `t` works on batch-head `t / 4` and key tile `t % 4`. The query window holds the whole
  [2048, 64] slab of its batch-head; the key and value windows hold rows `512 * (t % 4) + c'` of theirs; the mask
  window holds columns `512 * (t % 4) + c'` of its [2048, 2048] slab. The output window is written back exactly at
  the last key tile of each batch-head.
-/
import proofs.«421783_j40716289966518_3_alg».proof.Proof.Gen.KernelIdeal.Frame
import proofs.«421783_j40716289966518_3_alg».proof.Proof.SoftmaxLaw
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.TcCoe Idealize.ShloMosaic.ValueIdx Idealize.SL.Sem
open Cert.SoftmaxLaw

variable {F : FTy → Type} [FloatOps F]
variable (m : (ℓ : Loc nD τ sig) → Buf (Elt F) ℓ)

/-- The printed index maps of the four input windows at every grid point, decided once over the grid: the
    batch-head coordinate is `t / 4`, the key-tile coordinate (where a window has one) is `t % 4`, every other
    coordinate is `0`. -/
private theorem idx_facts : ∀ t : Fin cfg0.N,
    (win0_0.index t 0 = t.val / 4 ∧ win0_0.index t 1 = 0 ∧ win0_0.index t 2 = 0)
    ∧ (win0_1.index t 0 = t.val / 4 ∧ win0_1.index t 1 = t.val % 4 ∧ win0_1.index t 2 = 0)
    ∧ (win0_2.index t 0 = t.val / 4 ∧ win0_2.index t 1 = t.val % 4 ∧ win0_2.index t 2 = 0)
    ∧ (win0_3.index t 0 = t.val / 4 ∧ win0_3.index t 1 = 0 ∧ win0_3.index t 2 = t.val % 4) :=
  (by decide +kernel : ∀ t : Fin grid0.N,
    (win0_0.index t 0 = t.val / 4 ∧ win0_0.index t 1 = 0 ∧ win0_0.index t 2 = 0)
    ∧ (win0_1.index t 0 = t.val / 4 ∧ win0_1.index t 1 = t.val % 4 ∧ win0_1.index t 2 = 0)
    ∧ (win0_2.index t 0 = t.val / 4 ∧ win0_2.index t 1 = t.val % 4 ∧ win0_2.index t 2 = 0)
    ∧ (win0_3.index t 0 = t.val / 4 ∧ win0_3.index t 1 = 0 ∧ win0_3.index t 2 = t.val % 4))

/-- A grid point's number is below 128. -/
private theorem pt_lt (t : Fin cfg0.N) : t.val < 128 := lt_of_lt_of_eq t.isLt N_0

/-- The query block at point `t`: the slab of batch-head `t / 4`. -/
theorem qblk_apply (c : Dev nD) (t : Fin cfg0.N) (r : Fin 2048) (d : Fin 64) :
    (iblk m c 0 t : Vec F S1x2048x64 .f32) (ix3 (0 : Fin 1) r d)
      = (V m c main_arg0 : Vec F S32x2048x64 .f32) (ix3 (bh t.val) r d) := by
  obtain ⟨⟨h0, h1, h2⟩, -⟩ := idx_facts t
  have hb := bh_val t.val (pt_lt t)
  unfold iblk
  rw [View.read_apply]
  show V m c main_arg0 _ = V m c main_arg0 _
  congr 1
  funext a
  apply Fin.ext
  match a with
  | ⟨0, _⟩ => show win0_0.index t 0 * 1 + 1 * (0 : Fin 1).val = (bh t.val).val; rw [h0, hb]; simp
  | ⟨1, _⟩ => show win0_0.index t 1 * 2048 + 1 * r.val = r.val; rw [h1]; omega
  | ⟨2, _⟩ => show win0_0.index t 2 * 64 + 1 * d.val = d.val; rw [h2]; omega

/-- The key block at point `t`: rows `512 * (t % 4) + c'` of batch-head `t / 4`. -/
theorem kblk_apply (c : Dev nD) (t : Fin cfg0.N) (c' : Fin 512) (d : Fin 64) :
    (iblk m c 1 t : Vec F S1x512x64 .f32) (ix3 (0 : Fin 1) c' d)
      = (V m c main_arg1 : Vec F S32x2048x64 .f32) (ix3 (bh t.val) (key (t.val % 4) c') d) := by
  obtain ⟨-, ⟨h0, h1, h2⟩, -⟩ := idx_facts t
  have hb := bh_val t.val (pt_lt t)
  have hk := key_val (t.val % 4) (Nat.mod_lt _ (by norm_num)) c'
  unfold iblk
  rw [View.read_apply]
  show V m c main_arg1 _ = V m c main_arg1 _
  congr 1
  funext a
  apply Fin.ext
  match a with
  | ⟨0, _⟩ => show win0_1.index t 0 * 1 + 1 * (0 : Fin 1).val = (bh t.val).val; rw [h0, hb]; simp
  | ⟨1, _⟩ => show win0_1.index t 1 * 512 + 1 * c'.val = (key (t.val % 4) c').val; rw [h1, hk]; omega
  | ⟨2, _⟩ => show win0_1.index t 2 * 64 + 1 * d.val = d.val; rw [h2]; omega

/-- The value block at point `t`: the same rows of the values. -/
theorem vblk_apply (c : Dev nD) (t : Fin cfg0.N) (c' : Fin 512) (d : Fin 64) :
    (iblk m c 2 t : Vec F S1x512x64 .f32) (ix3 (0 : Fin 1) c' d)
      = (V m c main_arg2 : Vec F S32x2048x64 .f32) (ix3 (bh t.val) (key (t.val % 4) c') d) := by
  obtain ⟨-, -, ⟨h0, h1, h2⟩, -⟩ := idx_facts t
  have hb := bh_val t.val (pt_lt t)
  have hk := key_val (t.val % 4) (Nat.mod_lt _ (by norm_num)) c'
  unfold iblk
  rw [View.read_apply]
  show V m c main_arg2 _ = V m c main_arg2 _
  congr 1
  funext a
  apply Fin.ext
  match a with
  | ⟨0, _⟩ => show win0_2.index t 0 * 1 + 1 * (0 : Fin 1).val = (bh t.val).val; rw [h0, hb]; simp
  | ⟨1, _⟩ => show win0_2.index t 1 * 512 + 1 * c'.val = (key (t.val % 4) c').val; rw [h1, hk]; omega
  | ⟨2, _⟩ => show win0_2.index t 2 * 64 + 1 * d.val = d.val; rw [h2]; omega

/-- The mask block at point `t`: columns `512 * (t % 4) + c'` of batch-head `t / 4`. -/
theorem mblk_apply (c : Dev nD) (t : Fin cfg0.N) (r : Fin 2048) (c' : Fin 512) :
    (iblk m c 3 t : Vec F S1x2048x512 .f32) (ix3 (0 : Fin 1) r c')
      = (V m c main_arg3 : Vec F S32x2048x2048 .f32) (ix3 (bh t.val) r (key (t.val % 4) c')) := by
  obtain ⟨-, -, -, h0, h1, h2⟩ := idx_facts t
  have hb := bh_val t.val (pt_lt t)
  have hk := key_val (t.val % 4) (Nat.mod_lt _ (by norm_num)) c'
  unfold iblk
  rw [View.read_apply]
  show V m c main_arg3 _ = V m c main_arg3 _
  congr 1
  funext a
  apply Fin.ext
  match a with
  | ⟨0, _⟩ => show win0_3.index t 0 * 1 + 1 * (0 : Fin 1).val = (bh t.val).val; rw [h0, hb]; simp
  | ⟨1, _⟩ => show win0_3.index t 1 * 2048 + 1 * r.val = r.val; rw [h1]; omega
  | ⟨2, _⟩ => show win0_3.index t 2 * 512 + 1 * c'.val = (key (t.val % 4) c').val; rw [h2, hk]; omega

/-- The output window is written back exactly at the points of the last key tile. -/
theorem flush4_iff (t : Fin cfg0.N) : (cfg0.win 4).flush t = true ↔ t.val % 4 = 3 :=
  flush0_4 t

end Cert.KernelIdeal.Blocks

end
-- ==== Proof.Consts.lean ====
/-
  The three float literals of the kernel's body, as the extended reals their words denote: the scale `0.125` is the
  rational `1/8`; `+0.0` is `0`; and the word the running maximum starts from, about `-2.38e38`, is a real number
  (its value is never used: any real start gives the same result).
-/
import Idealize.ShloMosaic.PureOps.Ideal

noncomputable section

namespace Cert.Consts

open Idealize.ShloMosaic

/-- `0.125` denotes `1/8`. -/
theorem ofBits_eighth : Ideal.ofBits .f32 0x3E000000#32 = ((1 / 8 : ℝ) : EReal) := by
  simp [Ideal.ofBits, Ideal.ieee, -EReal.coe_mul]; norm_num

/-- `+0.0` denotes the real `0`. -/
theorem ofBits_zero : Ideal.ofBits .f32 0x00000000#32 = ((0 : ℝ) : EReal) := by
  simp [Ideal.ofBits, Ideal.ieee]

/-- The real number the running maximum starts from. -/
def negInit : ℝ := (Ideal.ofBits .f32 0xFF333332#32).toReal

/-- Its word denotes that real: it is neither infinity. -/
theorem ofBits_negInit : Ideal.ofBits .f32 0xFF333332#32 = ((negInit : ℝ) : EReal) :=
  (EReal.coe_toReal (by simp [Ideal.ofBits, Ideal.ieee, -EReal.coe_mul])
    (by simp [Ideal.ofBits, Ideal.ieee, -EReal.coe_mul])).symm

end Cert.Consts

end
-- ==== Proof.TileValues.lean ====
/-
  One key tile of the online softmax, read entry by entry at the ideal values, when every block entry is a real
  number. With `s r c'` the tile's masked scores (`tscore`), `M r` the new shift (`newMax`: the larger of the old shift
  and the row's largest score in the tile), the body's stored values are: the new shift `M r`; the kept sum
  `exp (μ r - M r) * l r + ∑ c', exp (s r c' - M r)`; the kept weighted sums
  `exp (μ r - M r) * a r d + ∑ c', exp (s r c' - M r) * v c' d`; at the last tile the quotient `a r d / l r`; and at the
  first tile the resets (the start shift, zero, zero) and the scaled queries `q r d * (1/8)`.
-/
import proofs.«421783_j40716289966518_3_alg».proof.Proof.Gen.KernelIdeal.Skeleton
import proofs.«421783_j40716289966518_3_alg».proof.Proof.SoftmaxLaw
import proofs.«421783_j40716289966518_3_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.TcCoe Idealize.ShloMosaic.ValueIdx
open Cert.SoftmaxLaw Finset

/-- An `[a]` array cast to `[a, 1]` reads, at `(i, u)`, the operand at `i`, whatever the unit coordinate `u`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! Real sums and maxima inside the extended reals. -/

private theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

private theorem fold_max_coe {ι : Type} (s : Finset ι) (hs : s.Nonempty) (f : ι → ℝ) :
    s.fold max (⊥ : EReal) (fun k => ((f k : ℝ) : EReal)) = ((s.sup' hs f : ℝ) : EReal) := by
  induction hs using Finset.Nonempty.cons_induction with
  | singleton a => rw [Finset.fold_singleton, Finset.sup'_singleton, max_bot_right]
  | cons a s ha hs ih =>
    rw [Finset.fold_cons, Finset.sup'_cons hs, ih]
    exact (EReal.coe_strictMono.monotone.map_max).symm

private theorem ofBits_negInf : Ideal.ofBits .f32 0xFF800000#32 = (⊥ : EReal) := by
  simp [Ideal.ofBits, Ideal.ieee]

/-! The two products' operand indices, axis by axis. -/

private theorem lhs_qk_0 (i : S2048x512.Idx) (q : dot_S2048x64_S512x64_S2048x512_1_1_0_0_n_n.contr.Idx) :
    (dot_S2048x64_S512x64_S2048x512_1_1_0_0_n_n.lhsIdx i q 0).val = (i 0).val := by
  unfold DotDims.lhsIdx
  rw [dif_neg (show ¬(0 : Fin S2048x64.rank) ∈ dot_S2048x64_S512x64_S2048x512_1_1_0_0_n_n.lhsBatch by decide), dif_pos (show (0 : Fin S2048x64.rank) ∈ dot_S2048x64_S512x64_S2048x512_1_1_0_0_n_n.lhsNonContracting by decide)]
  rfl
private theorem lhs_qk_1 (i : S2048x512.Idx) (q : dot_S2048x64_S512x64_S2048x512_1_1_0_0_n_n.contr.Idx) :
    (dot_S2048x64_S512x64_S2048x512_1_1_0_0_n_n.lhsIdx i q 1).val = (q ⟨0, by decide⟩).val :=
  dot_S2048x64_S512x64_S2048x512_1_1_0_0_n_n.lhsIdx_val_of_single rfl i q
private theorem rhs_qk_0 (i : S2048x512.Idx) (q : dot_S2048x64_S512x64_S2048x512_1_1_0_0_n_n.contr.Idx) :
    (dot_S2048x64_S512x64_S2048x512_1_1_0_0_n_n.rhsIdx i q 0).val = (i 1).val := by
  unfold DotDims.rhsIdx
  rw [dif_neg (show ¬(0 : Fin S512x64.rank) ∈ dot_S2048x64_S512x64_S2048x512_1_1_0_0_n_n.rhsBatch by decide), dif_pos (show (0 : Fin S512x64.rank) ∈ dot_S2048x64_S512x64_S2048x512_1_1_0_0_n_n.rhsNonContracting by decide)]
  rfl
private theorem rhs_qk_1 (i : S2048x512.Idx) (q : dot_S2048x64_S512x64_S2048x512_1_1_0_0_n_n.contr.Idx) :
    (dot_S2048x64_S512x64_S2048x512_1_1_0_0_n_n.rhsIdx i q 1).val = (q ⟨0, by decide⟩).val :=
  dot_S2048x64_S512x64_S2048x512_1_1_0_0_n_n.rhsIdx_val_of_single rfl i q

/-- The score product at `(r, c')`: the sum over the 64 features of query `r` times key `c'`. -/
private theorem matmul_qk_apply (x : FVec Ideal S2048x64 .bf16) (y : FVec Ideal S512x64 .bf16) (r : Fin 2048) (c' : Fin 512) :
    matmul dot_S2048x64_S512x64_S2048x512_1_1_0_0_n_n none x y (constant S2048x512 .f32 0x00000000#32) (ix2 r c')
      = ∑ d : Fin 64, x (ix2 r d) * y (ix2 c' d) := by
  simp only [matmul]
  rw [Ideal.matmul_constant_zero_apply, ← Equiv.sum_comp (contrEquiv1 dot_S2048x64_S512x64_S2048x512_1_1_0_0_n_n 64 rfl rfl).symm]
  refine Finset.sum_congr rfl fun k _ => ?_
  have hk := contrEquiv1_symm_val dot_S2048x64_S512x64_S2048x512_1_1_0_0_n_n 64 rfl rfl k
  have el : dot_S2048x64_S512x64_S2048x512_1_1_0_0_n_n.lhsIdx (ix2 r c') ((contrEquiv1 dot_S2048x64_S512x64_S2048x512_1_1_0_0_n_n 64 rfl rfl).symm k) = ix2 r k := funext fun a => Fin.ext (by
    match a with
    | ⟨0, _⟩ => exact lhs_qk_0 _ _
    | ⟨1, _⟩ => exact (lhs_qk_1 _ _).trans hk)
  have er : dot_S2048x64_S512x64_S2048x512_1_1_0_0_n_n.rhsIdx (ix2 r c') ((contrEquiv1 dot_S2048x64_S512x64_S2048x512_1_1_0_0_n_n 64 rfl rfl).symm k) = ix2 c' k := funext fun a => Fin.ext (by
    match a with
    | ⟨0, _⟩ => exact rhs_qk_0 _ _
    | ⟨1, _⟩ => exact (rhs_qk_1 _ _).trans hk)
  rw [el, er]

private theorem lhs_pv_0 (i : S2048x64.Idx) (q : dot_S2048x512_S512x64_S2048x64_1_0_0_1_n_n.contr.Idx) :
    (dot_S2048x512_S512x64_S2048x64_1_0_0_1_n_n.lhsIdx i q 0).val = (i 0).val := by
  unfold DotDims.lhsIdx
  rw [dif_neg (show ¬(0 : Fin S2048x512.rank) ∈ dot_S2048x512_S512x64_S2048x64_1_0_0_1_n_n.lhsBatch by decide), dif_pos (show (0 : Fin S2048x512.rank) ∈ dot_S2048x512_S512x64_S2048x64_1_0_0_1_n_n.lhsNonContracting by decide)]
  rfl
private theorem lhs_pv_1 (i : S2048x64.Idx) (q : dot_S2048x512_S512x64_S2048x64_1_0_0_1_n_n.contr.Idx) :
    (dot_S2048x512_S512x64_S2048x64_1_0_0_1_n_n.lhsIdx i q 1).val = (q ⟨0, by decide⟩).val :=
  dot_S2048x512_S512x64_S2048x64_1_0_0_1_n_n.lhsIdx_val_of_single rfl i q
private theorem rhs_pv_0 (i : S2048x64.Idx) (q : dot_S2048x512_S512x64_S2048x64_1_0_0_1_n_n.contr.Idx) :
    (dot_S2048x512_S512x64_S2048x64_1_0_0_1_n_n.rhsIdx i q 0).val = (q ⟨0, by decide⟩).val :=
  dot_S2048x512_S512x64_S2048x64_1_0_0_1_n_n.rhsIdx_val_of_single rfl i q
private theorem rhs_pv_1 (i : S2048x64.Idx) (q : dot_S2048x512_S512x64_S2048x64_1_0_0_1_n_n.contr.Idx) :
    (dot_S2048x512_S512x64_S2048x64_1_0_0_1_n_n.rhsIdx i q 1).val = (i 1).val := by
  unfold DotDims.rhsIdx
  rw [dif_neg (show ¬(1 : Fin S512x64.rank) ∈ dot_S2048x512_S512x64_S2048x64_1_0_0_1_n_n.rhsBatch by decide), dif_pos (show (1 : Fin S512x64.rank) ∈ dot_S2048x512_S512x64_S2048x64_1_0_0_1_n_n.rhsNonContracting by decide)]
  rfl

/-- The weighted-value product at `(r, d)`: the sum over the tile's 512 keys of weight `(r, c')` times value `(c', d)`. -/
private theorem matmul_pv_apply (x : FVec Ideal S2048x512 .bf16) (y : FVec Ideal S512x64 .bf16) (r : Fin 2048) (d : Fin 64) :
    matmul dot_S2048x512_S512x64_S2048x64_1_0_0_1_n_n none x y (constant S2048x64 .f32 0x00000000#32) (ix2 r d)
      = ∑ c' : Fin 512, x (ix2 r c') * y (ix2 c' d) := by
  simp only [matmul]
  rw [Ideal.matmul_constant_zero_apply, ← Equiv.sum_comp (contrEquiv1 dot_S2048x512_S512x64_S2048x64_1_0_0_1_n_n 512 rfl rfl).symm]
  refine Finset.sum_congr rfl fun k _ => ?_
  have hk := contrEquiv1_symm_val dot_S2048x512_S512x64_S2048x64_1_0_0_1_n_n 512 rfl rfl k
  have el : dot_S2048x512_S512x64_S2048x64_1_0_0_1_n_n.lhsIdx (ix2 r d) ((contrEquiv1 dot_S2048x512_S512x64_S2048x64_1_0_0_1_n_n 512 rfl rfl).symm k) = ix2 r k := funext fun a => Fin.ext (by
    match a with
    | ⟨0, _⟩ => exact lhs_pv_0 _ _
    | ⟨1, _⟩ => exact (lhs_pv_1 _ _).trans hk)
  have er : dot_S2048x512_S512x64_S2048x64_1_0_0_1_n_n.rhsIdx (ix2 r d) ((contrEquiv1 dot_S2048x512_S512x64_S2048x64_1_0_0_1_n_n 512 rfl rfl).symm k) = ix2 k d := funext fun a => Fin.ext (by
    match a with
    | ⟨0, _⟩ => exact (rhs_pv_0 _ _).trans hk
    | ⟨1, _⟩ => exact rhs_pv_1 _ _)
  rw [el, er]

/-! A row of a `[2048, 512]` tile reduced over its 512 lanes, when the row's entries are reals. -/

private theorem lift_row (r : Fin 2048) (c' : Fin 512) :
    reduces_S2048x512_S2048.lift (ix1 r) c' = ix2 r c' :=
  funext fun a => Fin.ext (by
    match a with
    | ⟨0, _⟩ => rfl
    | ⟨1, _⟩ => rfl)

/-- The largest of the row's entries: the fold of `max` from `-∞` is the largest of finitely many reals. -/
private theorem rowmax_apply (x : FVec Ideal S2048x512 .f32) (hφ : FKind.Formats .f32)
    (hacc : (0xFF800000#32 : BitVec 32) = FKind.maximumf.neutral .f32 hφ) (g : Fin 512 → ℝ) (r : Fin 2048)
    (hx : ∀ c' : Fin 512, (x (ix2 r c') : EReal) = ((g c' : ℝ) : EReal)) :
    (multiReduction (F := Ideal) .maximumf [1] S2048 x 0xFF800000#32 reduces_S2048x512_S2048 hφ hacc (ix1 r) : EReal)
      = ((univ.sup' ⟨(0 : Fin 512), mem_univ _⟩ g : ℝ) : EReal) := by
  refine (Ideal.multiReduction_maximumf_single x _ reduces_S2048x512_S2048 hφ hacc (ix1 r)).trans ?_
  show (Finset.univ : Finset (Fin 512)).fold max (Ideal.ofBits .f32 0xFF800000#32)
      (fun c' : Fin 512 => x (reduces_S2048x512_S2048.lift (ix1 r) c')) = _
  rw [ofBits_negInf, show (fun c' : Fin 512 => x (reduces_S2048x512_S2048.lift (ix1 r) c')) = fun c' : Fin 512 => ((g c' : ℝ) : EReal) from
    funext fun c' => by rw [lift_row, hx]]
  exact fold_max_coe _ _ g

/-- The sum of the row's entries. -/
private theorem rowsum_apply (x : FVec Ideal S2048x512 .f32) (hφ : FKind.Formats .f32)
    (hacc : (0x00000000#32 : BitVec 32) = FKind.add.neutral .f32 hφ) (g : Fin 512 → ℝ) (r : Fin 2048)
    (hx : ∀ c' : Fin 512, (x (ix2 r c') : EReal) = ((g c' : ℝ) : EReal)) :
    (multiReduction (F := Ideal) .add [1] S2048 x 0x00000000#32 reduces_S2048x512_S2048 hφ hacc (ix1 r) : EReal)
      = ((∑ c' : Fin 512, g c' : ℝ) : EReal) := by
  refine (Ideal.multiReduction_add_single x _ reduces_S2048x512_S2048 hφ hacc (ix1 r)).trans ?_
  show ∑ c' : Fin 512, x (reduces_S2048x512_S2048.lift (ix1 r) c') = _
  rw [coe_sum]
  exact Finset.sum_congr rfl fun c' _ => by rw [lift_row, hx]

section Step

variable (kb vb : Vec Ideal S1x512x64 .f32) (mb : Vec Ideal S1x2048x512 .f32) (qs : Vec Ideal S2048x64 .bf16)
  (mo lo : Vec Ideal S2048x1 .f32) (ao : Vec Ideal S2048x64 .f32)
  (kR vR : Fin 512 → Fin 64 → ℝ) (mR : Fin 2048 → Fin 512 → ℝ) (qR : Fin 2048 → Fin 64 → ℝ)
  (μO lO : Fin 2048 → ℝ) (aO : Fin 2048 → Fin 64 → ℝ)
  (hk : ∀ (c' : Fin 512) (d : Fin 64), (kb (ix3 (0 : Fin 1) c' d) : EReal) = ((kR c' d : ℝ) : EReal))
  (hv : ∀ (c' : Fin 512) (d : Fin 64), (vb (ix3 (0 : Fin 1) c' d) : EReal) = ((vR c' d : ℝ) : EReal))
  (hm : ∀ (r : Fin 2048) (c' : Fin 512), (mb (ix3 (0 : Fin 1) r c') : EReal) = ((mR r c' : ℝ) : EReal))
  (hq : ∀ (r : Fin 2048) (d : Fin 64), (qs (ix2 r d) : EReal) = ((qR r d : ℝ) : EReal))
  (hmo : ∀ r : Fin 2048, (mo (ix2 r (0 : Fin 1)) : EReal) = ((μO r : ℝ) : EReal))
  (hlo : ∀ r : Fin 2048, (lo (ix2 r (0 : Fin 1)) : EReal) = ((lO r : ℝ) : EReal))
  (hao : ∀ (r : Fin 2048) (d : Fin 64), (ao (ix2 r d) : EReal) = ((aO r d : ℝ) : EReal))

include hk hm hq in
/-- The tile's masked score at `(r, c')`. -/
private theorem pay8_apply (r : Fin 2048) (c' : Fin 512) :
    (k0_pay8 (F := Ideal) kb qs mb (ix2 r c') : EReal) = ((tscore qR kR mR r c' : ℝ) : EReal) := by
  unfold k0_pay8
  rw [mulf_apply, matmul_qk_apply, shapeCast_1ab_ab_apply, hm]
  unfold tscore
  rw [EReal.coe_mul, coe_sum]
  congr 1
  refine Finset.sum_congr rfl fun d _ => ?_
  rw [truncf_apply, shapeCast_1ab_ab_apply, hq, hk, EReal.coe_mul]

include hk hm hq hmo in
/-- The new shift. -/
theorem pay9_apply (r : Fin 2048) :
    (k0_pay9 (F := Ideal) kb qs mb mo (ix2 r (0 : Fin 1)) : EReal)
      = ((newMax μO (tscore qR kR mR) r : ℝ) : EReal) := by
  unfold k0_pay9
  rw [maximumf_apply, shapeCast_a_a1_apply, hmo]
  refine (congrArg (max _) (rowmax_apply _ _ _ (tscore qR kR mR r) r
    (pay8_apply kb mb qs kR mR qR hk hm hq r))).trans ?_
  unfold newMax
  exact (EReal.coe_strictMono.monotone.map_max).symm

include hk hm hq hmo in
/-- The factor that carries what was kept to the new shift. -/
private theorem pay10_apply (r : Fin 2048) :
    (k0_pay10 (F := Ideal) kb qs mb mo mo (ix2 r (0 : Fin 1)) : EReal)
      = ((Real.exp (μO r - newMax μO (tscore qR kR mR) r) : ℝ) : EReal) := by
  unfold k0_pay10
  show Ideal.exp (subf mo (k0_pay9 (F := Ideal) kb qs mb mo) (ix2 r (0 : Fin 1))) = _
  rw [subf_apply, hmo, pay9_apply kb mb qs mo kR mR qR μO hk hm hq hmo r, ← EReal.coe_sub, Ideal.exp_coe]

include hk hm hq hmo in
/-- The tile's weights at the new shift. -/
private theorem pay11_apply (r : Fin 2048) (c' : Fin 512) :
    (k0_pay11 (F := Ideal) kb qs mb mo (ix2 r c') : EReal)
      = ((Real.exp (tscore qR kR mR r c' - newMax μO (tscore qR kR mR) r) : ℝ) : EReal) := by
  unfold k0_pay11
  show Ideal.exp (subf (k0_pay8 (F := Ideal) kb qs mb)
    (broadcastTo S2048x512 (k0_pay9 (F := Ideal) kb qs mb mo) broadcasts_S2048x1_S2048x512) (ix2 r c')) = _
  rw [subf_apply, broadcastTo_a1_ab_apply, pay8_apply kb mb qs kR mR qR hk hm hq r c',
    pay9_apply kb mb qs mo kR mR qR μO hk hm hq hmo r, ← EReal.coe_sub, Ideal.exp_coe]

include hk hm hq hmo hlo in
/-- The kept sum of weights after the tile. -/
theorem pay12_apply (r : Fin 2048) :
    (k0_pay12 (F := Ideal) kb qs mb mo mo lo (ix2 r (0 : Fin 1)) : EReal)
      = ((Real.exp (μO r - newMax μO (tscore qR kR mR) r) * lO r
          + ∑ c' : Fin 512, Real.exp (tscore qR kR mR r c' - newMax μO (tscore qR kR mR) r) : ℝ) : EReal) := by
  unfold k0_pay12
  rw [shapeCast_self, addf_apply, mulf_apply, shapeCast_a_a1_apply,
    pay10_apply kb mb qs mo kR mR qR μO hk hm hq hmo r, hlo]
  refine (congrArg (_ + ·) (rowsum_apply _ _ _
    (fun c' => Real.exp (tscore qR kR mR r c' - newMax μO (tscore qR kR mR) r)) r
    (pay11_apply kb mb qs mo kR mR qR μO hk hm hq hmo r))).trans ?_
  rw [← EReal.coe_mul, ← EReal.coe_add]

include hv in
/-- The tile's values. -/
private theorem pay13_apply (c' : Fin 512) (d : Fin 64) :
    (k0_pay13 (F := Ideal) vb (ix2 c' d) : EReal) = ((vR c' d : ℝ) : EReal) := by
  unfold k0_pay13
  rw [truncf_apply, shapeCast_1ab_ab_apply, hv]

include hk hv hm hq hmo hao in
/-- The kept weighted sums after the tile. -/
theorem pay1_apply (r : Fin 2048) (d : Fin 64) :
    (k0_pay1 (F := Ideal) (k0_pay10 kb qs mb mo mo) (k0_pay11 kb qs mb mo) (k0_pay13 vb) ao (ix2 r d) : EReal)
      = ((Real.exp (μO r - newMax μO (tscore qR kR mR) r) * aO r d
          + ∑ c' : Fin 512, Real.exp (tscore qR kR mR r c' - newMax μO (tscore qR kR mR) r) * vR c' d : ℝ) : EReal) := by
  unfold k0_pay1
  rw [shapeCast_self, addf_apply, mulf_apply, broadcastTo_a1_ab_apply,
    pay10_apply kb mb qs mo kR mR qR μO hk hm hq hmo r, hao, matmul_pv_apply, EReal.coe_add, EReal.coe_mul, coe_sum]
  congr 1
  refine Finset.sum_congr rfl fun c' _ => ?_
  rw [truncf_apply, pay11_apply kb mb qs mo kR mR qR μO hk hm hq hmo r c', pay13_apply vb vR hv c' d, EReal.coe_mul]

end Step

/-- Storing the new shift changes nothing of it. -/
theorem pay2_eq {F : FTy → Type} [FloatOps F] (x : FVec F S2048x1 .f32) : k0_pay2 x = x := by
  unfold k0_pay2
  exact shapeCast_self _ _

/-- The last tile's quotient. -/
theorem pay3_apply (ao : Vec Ideal S2048x64 .f32) (lo : Vec Ideal S2048x1 .f32)
    (aR : Fin 2048 → Fin 64 → ℝ) (lR : Fin 2048 → ℝ)
    (hao : ∀ (r : Fin 2048) (d : Fin 64), (ao (ix2 r d) : EReal) = ((aR r d : ℝ) : EReal))
    (hlo : ∀ r : Fin 2048, (lo (ix2 r (0 : Fin 1)) : EReal) = ((lR r : ℝ) : EReal))
    (hl0 : ∀ r, lR r ≠ 0) (r : Fin 2048) (d : Fin 64) :
    (k0_pay3 (F := Ideal) ao lo (ix3 (0 : Fin 1) r d) : EReal) = ((aR r d / lR r : ℝ) : EReal) := by
  unfold k0_pay3
  rw [shapeCast_ab_1ab_apply, divf_apply, broadcastTo_a1_ab_apply, hao, hlo, Ideal.div_coe (hl0 r), ← EReal.coe_mul,
    mul_one_div]

/-- The first tile's resets: the start shift, … -/
theorem pay4_apply (r : Fin 2048) :
    (k0_pay4 (F := Ideal) (ix2 r (0 : Fin 1)) : EReal) = ((Cert.Consts.negInit : ℝ) : EReal) := by
  unfold k0_pay4
  rw [shapeCast_self, broadcast_apply]
  exact Cert.Consts.ofBits_negInit

/-- … a zero kept sum, … -/
theorem pay5_apply (r : Fin 2048) : (k0_pay5 (F := Ideal) (ix2 r (0 : Fin 1)) : EReal) = ((0 : ℝ) : EReal) := by
  unfold k0_pay5
  rw [shapeCast_self, broadcast_apply]
  exact Cert.Consts.ofBits_zero

/-- … zero kept weighted sums, … -/
theorem pay6_apply (r : Fin 2048) (d : Fin 64) : (k0_pay6 (F := Ideal) (ix2 r d) : EReal) = ((0 : ℝ) : EReal) := by
  unfold k0_pay6
  rw [shapeCast_self, broadcast_apply]
  exact Cert.Consts.ofBits_zero

/-- … and the queries scaled by `1/8`. -/
theorem pay7_apply (qb : Vec Ideal S1x2048x64 .f32) (qbR : Fin 2048 → Fin 64 → ℝ)
    (hqb : ∀ (r : Fin 2048) (d : Fin 64), (qb (ix3 (0 : Fin 1) r d) : EReal) = ((qbR r d : ℝ) : EReal))
    (r : Fin 2048) (d : Fin 64) :
    (k0_pay7 (F := Ideal) qb (ix2 r d) : EReal) = ((qbR r d * (1 / 8) : ℝ) : EReal) := by
  unfold k0_pay7
  rw [shapeCast_self, truncf_apply, mulf_apply, broadcast_apply, shapeCast_1ab_ab_apply, hqb]
  show (_ : EReal) * Ideal.ofBits .f32 0x3E000000#32 = _
  rw [Cert.Consts.ofBits_eighth, ← EReal.coe_mul]

end Cert.KernelIdeal.Tile

end
-- ==== Proof.OnlineState.lean ====
/-
  The state the online softmax keeps, and how one key tile moves it.

  For batch-head `b`, after its first `j` key tiles (the keys below `512 * j`), the kept buffers hold, for SOME real shift
  `μ r` in each query row `r`: the shift itself; the sum of weights `∑ exp (S b r c - μ r)`; the weighted sums
  `∑ exp (S b r c - μ r) * v b c d`; and the queries times 1/8 — the sums over the keys below `512 * j`, with `S` the masked,
  scaled scores. The resets of the first tile are this state at `j = 0` (empty sums; the start shift is a real number).
  One tile takes the state at `j` to the state at `j + 1` with the new shift `max (μ r) (the row's largest score in the tile)`:
  that is the carrying law of the kept sums. At `j = 4` every key has been seen, and the quotient of the weighted sums by
  the sum of weights is attention, whatever the shift is.
-/
import proofs.«421783_j40716289966518_3_alg».proof.Proof.TileValues
import proofs.«421783_j40716289966518_3_alg».proof.Proof.SoftmaxLaw
import proofs.«421783_j40716289966518_3_alg».proof.Proof.Consts
import Idealize.ShloMosaic.Lib.ValueIdx

noncomputable section

namespace Cert.KernelIdeal.Online

open Cert.KernelIdeal Cert.KernelIdeal.Gen Idealize.ShloMosaic Idealize.ShloMosaic.TcCoe Idealize.ShloMosaic.ValueIdx
open Cert.SoftmaxLaw Cert.KernelIdeal.Tile Finset

variable (Q K Vv : Fin 32 → Fin 2048 → Fin 64 → ℝ) (Mk : Fin 32 → Fin 2048 → Fin 2048 → ℝ)

/-- The kept buffers hold batch-head `b`'s state after its first `j` key tiles, for some real shift in each row. -/
def State (b : Fin 32) (j : ℕ) (xm xl : Vec Ideal S2048x1 .f32) (xa : Vec Ideal S2048x64 .f32)
    (xq : Vec Ideal S2048x64 .bf16) : Prop :=
  ∃ μ : Fin 2048 → ℝ,
    (∀ r : Fin 2048, (xm (ix2 r (0 : Fin 1)) : EReal) = ((μ r : ℝ) : EReal))
    ∧ (∀ r : Fin 2048, (xl (ix2 r (0 : Fin 1)) : EReal)
        = ((below (512 * j) (fun c => Real.exp (score Q K Mk b r c - μ r)) : ℝ) : EReal))
    ∧ (∀ (r : Fin 2048) (d : Fin 64), (xa (ix2 r d) : EReal)
        = ((below (512 * j) (fun c => Real.exp (score Q K Mk b r c - μ r) * Vv b c d) : ℝ) : EReal))
    ∧ (∀ (r : Fin 2048) (d : Fin 64), (xq (ix2 r d) : EReal) = ((Q b r d * (1 / 8) : ℝ) : EReal))

/-- The first tile's resets are the state before any key: empty sums, the start shift, the scaled queries. -/
theorem start (b : Fin 32) (qb : Vec Ideal S1x2048x64 .f32)
    (hqb : ∀ (r : Fin 2048) (d : Fin 64), (qb (ix3 (0 : Fin 1) r d) : EReal) = ((Q b r d : ℝ) : EReal)) :
    State Q K Vv Mk b 0 (k0_pay4 (F := Ideal)) (k0_pay5 (F := Ideal)) (k0_pay6 (F := Ideal)) (k0_pay7 qb) := by
  refine ⟨fun _ => Cert.Consts.negInit, fun r => pay4_apply r, fun r => ?_, fun r d => ?_,
    fun r d => pay7_apply qb (Q b) hqb r d⟩
  · rw [pay5_apply, Nat.mul_zero, below_zero]
  · rw [pay6_apply, Nat.mul_zero, below_zero]

/-- One key tile: from the state after `j` tiles and the blocks of tile `j`, the stored values are the state after
    `j + 1` tiles, at the new shift. -/
theorem step (b : Fin 32) (j : ℕ) (hj : j < 4) (xm xl : Vec Ideal S2048x1 .f32) (xa : Vec Ideal S2048x64 .f32)
    (xq : Vec Ideal S2048x64 .bf16) (kb vb : Vec Ideal S1x512x64 .f32) (mb : Vec Ideal S1x2048x512 .f32)
    (hk : ∀ (c' : Fin 512) (d : Fin 64), (kb (ix3 (0 : Fin 1) c' d) : EReal) = ((K b (key j c') d : ℝ) : EReal))
    (hv : ∀ (c' : Fin 512) (d : Fin 64), (vb (ix3 (0 : Fin 1) c' d) : EReal) = ((Vv b (key j c') d : ℝ) : EReal))
    (hm : ∀ (r : Fin 2048) (c' : Fin 512), (mb (ix3 (0 : Fin 1) r c') : EReal) = ((Mk b r (key j c') : ℝ) : EReal))
    (h : State Q K Vv Mk b j xm xl xa xq) :
    State Q K Vv Mk b (j + 1) (k0_pay2 (k0_pay9 kb xq mb xm)) (k0_pay12 kb xq mb xm xm xl)
      (k0_pay1 (k0_pay10 kb xq mb xm xm) (k0_pay11 kb xq mb xm) (k0_pay13 vb) xa) xq := by
  obtain ⟨μ, hμ, hl, ha, hq⟩ := h
  -- the tile's scores are the scores at the tile's keys: scaling the queries first changes nothing
  have hs : ∀ (r : Fin 2048) (c' : Fin 512),
      tscore (fun r d => Q b r d * (1 / 8)) (fun c' d => K b (key j c') d) (fun r c' => Mk b r (key j c')) r c'
        = score Q K Mk b r (key j c') := fun r c' => score_scaled_first Q K Mk b r (key j c')
  refine ⟨newMax μ (tscore (fun r d => Q b r d * (1 / 8)) (fun c' d => K b (key j c') d) (fun r c' => Mk b r (key j c'))),
    fun r => ?_, fun r => ?_, fun r d => ?_, hq⟩
  · rw [pay2_eq]
    exact pay9_apply (kb := kb) (mb := mb) (qs := xq) (mo := xm) (kR := fun c' d => K b (key j c') d)
      (mR := fun r c' => Mk b r (key j c')) (qR := fun r d => Q b r d * (1 / 8)) (μO := μ) (hk := hk) (hm := hm) (hq := hq)
      (hmo := hμ) r
  · refine (pay12_apply (kb := kb) (mb := mb) (qs := xq) (mo := xm) (lo := xl) (kR := fun c' d => K b (key j c') d)
      (mR := fun r c' => Mk b r (key j c')) (qR := fun r d => Q b r d * (1 / 8)) (μO := μ)
      (lO := fun r => below (512 * j) (fun c => Real.exp (score Q K Mk b r c - μ r)))
      (hk := hk) (hm := hm) (hq := hq) (hmo := hμ) (hlo := hl) r).trans ?_
    refine congrArg (fun x : ℝ => (x : EReal)) ?_
    simp only [hs]
    exact carry_one j hj (fun c => score Q K Mk b r c) (μ r) _
  · refine (pay1_apply (kb := kb) (vb := vb) (mb := mb) (qs := xq) (mo := xm) (ao := xa)
      (kR := fun c' d => K b (key j c') d) (vR := fun c' d => Vv b (key j c') d)
      (mR := fun r c' => Mk b r (key j c')) (qR := fun r d => Q b r d * (1 / 8)) (μO := μ)
      (aO := fun r d => below (512 * j) (fun c => Real.exp (score Q K Mk b r c - μ r) * Vv b c d))
      (hk := hk) (hv := hv) (hm := hm) (hq := hq) (hmo := hμ) (hao := ha) r d).trans ?_
    refine congrArg (fun x : ℝ => (x : EReal)) ?_
    simp only [hs]
    exact carry j hj (fun c => score Q K Mk b r c) (fun c => Vv b c d) (μ r) _

/-- After all four tiles the stored quotient is attention: the shift cancels. -/
theorem finish (b : Fin 32) (xm xl : Vec Ideal S2048x1 .f32) (xa : Vec Ideal S2048x64 .f32)
    (xq : Vec Ideal S2048x64 .bf16) (h : State Q K Vv Mk b 4 xm xl xa xq) (r : Fin 2048) (d : Fin 64) :
    (k0_pay3 (F := Ideal) xa xl (ix3 (0 : Fin 1) r d) : EReal) = ((attn Q K Vv Mk b r d : ℝ) : EReal) := by
  obtain ⟨μ, -, hl, ha, -⟩ := h
  have h2048 : 512 * 4 = 2048 := rfl
  have hpos : ∀ r : Fin 2048, below (512 * 4) (fun c => Real.exp (score Q K Mk b r c - μ r)) ≠ 0 := fun r => by
    rw [h2048, below_all]
    exact (sum_exp_pos (fun c => score Q K Mk b r c - μ r)).ne'
  refine (pay3_apply xa xl _ _ ha hl hpos r d).trans ?_
  refine congrArg (fun x : ℝ => (x : EReal)) ?_
  rw [h2048, below_all, below_all]
  exact ratio_shift (fun c => score Q K Mk b r c) (fun c => Vv b c d) (μ r)

end Cert.KernelIdeal.Online

end
-- ==== Proof.AttnSpec.lean ====
/-
  What both programs compute, as one function of the four argument arrays: softmax attention of the arrays' real
  parts, `out b r d = (∑ c, exp (S b r c) * v b c d) / (∑ c, exp (S b r c))` with
  `S b r c = (∑ d, q b r d * k b c d) * (1/8) * mask b r c`. Under the precondition every entry of the four arrays is a real
  number (`IsReal`), so nothing is lost by reading the arrays through their real parts.
-/
import Idealize.ShloMosaic.Lib.ValueIdx
import proofs.«421783_j40716289966518_3_alg».proof.Proof.SoftmaxLaw

noncomputable section

namespace Cert.AttnSpec

open Idealize.ShloMosaic Idealize.ShloMosaic.ValueIdx Cert.SoftmaxLaw

/-- Every entry of `x` is a real number (neither infinity). -/
def IsReal (S : Shape) (x : S.Idx → EReal) : Prop := ∀ i, x i = ((x i).toReal : EReal)

/-- The real parts of a rank-3 array, by coordinates. -/
def re3 {n0 n1 n2 : ℕ} (x : (⟨3, ![n0, n1, n2]⟩ : Shape).Idx → EReal) : Fin n0 → Fin n1 → Fin n2 → ℝ :=
  fun a b c => (x (ix3 a b c)).toReal

theorem re3_spec {n0 n1 n2 : ℕ} (x : (⟨3, ![n0, n1, n2]⟩ : Shape).Idx → EReal) (h : IsReal _ x)
    (a : Fin n0) (b : Fin n1) (c : Fin n2) : x (ix3 a b c) = ((re3 x a b c : ℝ) : EReal) := h _

/-- Attention of the arrays' real parts, as an array of extended reals. -/
def G (x0 x1 x2 : (⟨3, ![32, 2048, 64]⟩ : Shape).Idx → EReal) (x3 : (⟨3, ![32, 2048, 2048]⟩ : Shape).Idx → EReal) :
    (⟨3, ![32, 2048, 64]⟩ : Shape).Idx → EReal :=
  fun i => ((attn (re3 x0) (re3 x1) (re3 x2) (re3 x3) (i 0) (i 1) (i 2) : ℝ) : EReal)

theorem G_ix3 (x0 x1 x2 : (⟨3, ![32, 2048, 64]⟩ : Shape).Idx → EReal) (x3 : (⟨3, ![32, 2048, 2048]⟩ : Shape).Idx → EReal)
    (b : Fin 32) (r : Fin 2048) (d : Fin 64) :
    G x0 x1 x2 x3 (ix3 b r d) = ((attn (re3 x0) (re3 x1) (re3 x2) (re3 x3) b r d : ℝ) : EReal) := rfl

end Cert.AttnSpec

end
-- ==== Proof.Invariant.lean ====
/-
  The kept buffers, point by point. The grid's points are numbered row-major over (32 batch-heads) × (4 key tiles),
  so point `n` is key tile `n % 4` of batch-head `n / 4`. By induction on the point: after point `n` the kept buffers hold
  the state of batch-head `n / 4` after its first `n % 4 + 1` key tiles. At a first tile the body resets the buffers
  and takes one step from the reset state; at a later tile it takes one step from what the point before left, which
  belongs to the same batch-head. After a last tile all 2048 keys have been seen and the block the body stores is
  attention of that batch-head.
-/
import proofs.«421783_j40716289966518_3_alg».proof.Proof.Gen.KernelIdeal.Frame
import proofs.«421783_j40716289966518_3_alg».proof.Proof.Pieces
import proofs.«421783_j40716289966518_3_alg».proof.Proof.Blocks
import proofs.«421783_j40716289966518_3_alg».proof.Proof.OnlineState
import proofs.«421783_j40716289966518_3_alg».proof.Proof.AttnSpec

noncomputable section

namespace Cert.KernelIdeal.Inv

open Cert.KernelIdeal Cert.KernelIdeal.Gen Idealize.ShloMosaic Idealize.ShloMosaic.TcCoe Idealize.ShloMosaic.ValueIdx Idealize.SL.Sem
open Cert.SoftmaxLaw Cert.AttnSpec Cert.KernelIdeal.Online

variable (m : (ℓ : Loc nD τ sig) → Buf (Elt Ideal) ℓ) (c : Dev nD)

/-- The four argument arrays as the region finds them: queries, keys, values, mask. -/
abbrev arrQ : Vec Ideal S32x2048x64 .f32 := V m c main_arg0
abbrev arrK : Vec Ideal S32x2048x64 .f32 := V m c main_arg1
abbrev arrV : Vec Ideal S32x2048x64 .f32 := V m c main_arg2
abbrev arrM : Vec Ideal S32x2048x2048 .f32 := V m c main_arg3

variable (hQ : IsReal S32x2048x64 (arrQ m c)) (hK : IsReal S32x2048x64 (arrK m c))
  (hV : IsReal S32x2048x64 (arrV m c)) (hM : IsReal S32x2048x2048 (arrM m c))

include hQ hK hV hM in
/-- After point `n` the kept buffers hold the state of batch-head `n / 4` after `n % 4 + 1` key tiles. -/
theorem state_at (n : ℕ) (hn : n < cfg0.N) :
    State (re3 (arrQ m c)) (re3 (arrK m c)) (re3 (arrV m c)) (re3 (arrM m c)) (bh n) (n % 4 + 1)
      (outsAt0 m c n hn).2.1 (outsAt0 m c n hn).2.2.1 (outsAt0 m c n hn).2.2.2.1 (outsAt0 m c n hn).2.2.2.2 := by
  induction n using Nat.strong_induction_on with
  | _ n ih =>
    have hN : cfg0.N = 128 := N_0
    -- the point's key, value and mask blocks are tile `n % 4` of batch-head `n / 4`
    have hk : ∀ (c' : Fin 512) (d : Fin 64), ((iblk m c 1 ⟨n, hn⟩ : Vec Ideal S1x512x64 .f32) (ix3 (0 : Fin 1) c' d) : EReal)
        = ((re3 (arrK m c) (bh n) (key (n % 4) c') d : ℝ) : EReal) := fun c' d => by
      rw [Blocks.kblk_apply]; exact re3_spec (arrK m c) hK _ _ _
    have hv : ∀ (c' : Fin 512) (d : Fin 64), ((iblk m c 2 ⟨n, hn⟩ : Vec Ideal S1x512x64 .f32) (ix3 (0 : Fin 1) c' d) : EReal)
        = ((re3 (arrV m c) (bh n) (key (n % 4) c') d : ℝ) : EReal) := fun c' d => by
      rw [Blocks.vblk_apply]; exact re3_spec (arrV m c) hV _ _ _
    have hm : ∀ (r : Fin 2048) (c' : Fin 512), ((iblk m c 3 ⟨n, hn⟩ : Vec Ideal S1x2048x512 .f32) (ix3 (0 : Fin 1) r c') : EReal)
        = ((re3 (arrM m c) (bh n) r (key (n % 4) c') : ℝ) : EReal) := fun r c' => by
      rw [Blocks.mblk_apply]; exact re3_spec (arrM m c) hM _ _ _
    by_cases h0 : n % 4 = 0
    · -- a first tile: the resets, then one step
      have h1 : ¬n % 4 = 3 := by omega
      have hq : ∀ (r : Fin 2048) (d : Fin 64), ((iblk m c 0 ⟨n, hn⟩ : Vec Ideal S1x2048x64 .f32) (ix3 (0 : Fin 1) r d) : EReal)
          = ((re3 (arrQ m c) (bh n) r d : ℝ) : EReal) := fun r d => by
        rw [Blocks.qblk_apply]; exact re3_spec (arrQ m c) hQ _ _ _
      rw [outsAt0_A m c ⟨n, hn⟩ h0 h1]
      dsimp only
      rw [Pieces.sA0, Pieces.sA1, Pieces.sA2, Pieces.sA3]
      have e : n % 4 + 1 = 0 + 1 := by rw [h0]
      rw [e]
      rw [h0] at hk hv hm
      exact step _ _ _ _ (bh n) 0 (by norm_num) _ _ _ _ _ _ _ hk hv hm (start _ _ _ _ (bh n) _ hq)
    · -- a later tile: one step from what the point before left
      have hp := ih (n - 1) (by omega) (by omega)
      have eb : bh (n - 1) = bh n := Fin.ext (by simp only [bh]; omega)
      have ej : (n - 1) % 4 + 1 = n % 4 := by omega
      rw [eb, ej] at hp
      by_cases h1 : n % 4 = 3
      · rw [outsAt0_C m c ⟨n, hn⟩ h0 h1]
        dsimp only
        rw [Pieces.sC0, Pieces.sC1, Pieces.sC2, Pieces.sC3]
        exact step _ _ _ _ (bh n) (n % 4) (by omega) _ _ _ _ _ _ _ hk hv hm hp
      · rw [outsAt0_B m c ⟨n, hn⟩ h0 h1]
        dsimp only
        rw [Pieces.sB0, Pieces.sB1, Pieces.sB2, Pieces.sB3]
        exact step _ _ _ _ (bh n) (n % 4) (by omega) _ _ _ _ _ _ _ hk hv hm hp

include hQ hK hV hM in
/-- After a last key tile the stored block is attention of its batch-head. -/
theorem out_at (n : ℕ) (hn : n < cfg0.N) (h3 : n % 4 = 3) (r : Fin 2048) (d : Fin 64) :
    ((outsAt0 m c n hn).1 (ix3 (0 : Fin 1) r d) : EReal)
      = ((attn (re3 (arrQ m c)) (re3 (arrK m c)) (re3 (arrV m c)) (re3 (arrM m c)) (bh n) r d : ℝ) : EReal) := by
  have hN : cfg0.N = 128 := N_0
  have h0 : ¬n % 4 = 0 := by omega
  have hs := state_at m c hQ hK hV hM n hn
  rw [outsAt0_C m c ⟨n, hn⟩ h0 h3] at hs
  dsimp only at hs
  rw [Pieces.sC0, Pieces.sC1, Pieces.sC2, Pieces.sC3] at hs
  rw [show n % 4 + 1 = 4 from by omega] at hs
  rw [outsAt0_C m c ⟨n, hn⟩ h0 h3]
  dsimp only
  rw [Pieces.oC4]
  exact finish _ _ _ _ (bh n) _ _ _ _ hs r d

end Cert.KernelIdeal.Inv

end
-- ==== Proof.KernelValue.lean ====
/-
  The kernel's result array. The output window's block at point `t` is the whole [2048, 64] slab of batch-head `t / 4`,
  and it is written back only after that batch-head's last key tile, where the stored block is attention of the
  batch-head. The 32 last-tile points' blocks are the 32 slabs, so together they cover the array: the run ends with
  the result array holding attention of the argument arrays' real parts, every argument array unchanged.
-/
import proofs.«421783_j40716289966518_3_alg».proof.Proof.Gen.KernelIdeal.Value
import proofs.«421783_j40716289966518_3_alg».proof.Proof.Invariant
import proofs.«421783_j40716289966518_3_alg».proof.Proof.Blocks
import proofs.«421783_j40716289966518_3_alg».proof.Proof.AttnSpec
import Idealize.ShloMosaic.Lib.Pipeline.Value
import Idealize.ShloMosaic.Lib.ValueIdx

noncomputable section

namespace Cert.KernelIdeal.AttnValue

open Cert.KernelIdeal Cert.KernelIdeal.Gen Idealize.ShloMosaic Idealize.ShloMosaic.TcCoe Idealize.ShloMosaic.ValueIdx Idealize.SL.Sem
open Idealize.ShloMosaic.Pipeline (Dat)
open Cert.SoftmaxLaw Cert.AttnSpec Cert.KernelIdeal.Inv

variable (m : (ℓ : Loc nD τ sig) → Buf (Elt Ideal) ℓ) (ρ : Dev nD → PrngReg)

/-- The output window's index map at every grid point, decided once over the grid: the batch-head coordinate is
    `t / 4`, the other two are `0`. -/
theorem idx_out : ∀ t : Fin cfg0.N, win0_4.index t 0 = t.val / 4 ∧ win0_4.index t 1 = 0 ∧ win0_4.index t 2 = 0 :=
  (by decide +kernel : ∀ t : Fin grid0.N, win0_4.index t 0 = t.val / 4 ∧ win0_4.index t 1 = 0 ∧ win0_4.index t 2 = 0)

/-- Attention of the argument arrays' real parts, as contents of the result array. -/
abbrev result (c : Dev nD) : Buf (Elt Ideal) ((c : Thread nD τ).loc main_v0) :=
  G (arrQ m c) (arrK m c) (arrV m c) (arrM m c)

section

variable (c : Dev nD) (hQ : IsReal S32x2048x64 (arrQ m c)) (hK : IsReal S32x2048x64 (arrK m c))
  (hV : IsReal S32x2048x64 (arrV m c)) (hM : IsReal S32x2048x2048 (arrM m c))

include hQ hK hV hM in
/-- What a last-tile point writes back is its batch-head's slab of the result. -/
theorem flushed_eq (t : Fin cfg0.N) (hf : (cfg0.win 4).flush t = true) :
    (dats m 0 c).flushed 4 t = ((cfg0.win 4).blk t).view.read (Elt Ideal) (result m c) := by
  have h3 : t.val % 4 = 3 := (Blocks.flush4_iff t).mp hf
  obtain ⟨e0, e1, e2⟩ := idx_out t
  have hb := bh_val t.val (lt_of_lt_of_eq t.isLt N_0)
  rw [Cert.KernelIdeal.Value.flushed4]
  funext (j : S1x2048x64.Idx)
  obtain ⟨z, r, d, rfl⟩ : ∃ (z : Fin 1) (r : Fin 2048) (d : Fin 64), j = ix3 z r d := ⟨j 0, j 1, j 2, eq_ix3 j⟩
  obtain rfl : z = 0 := Subsingleton.elim _ _
  show ((outsAt0 m c t.val t.isLt).1 (ix3 (0 : Fin 1) r d) : EReal)
    = result m c (((cfg0.win 4).blk t).view.emb (ix3 (0 : Fin 1) r d))
  rw [out_at m c hQ hK hV hM t.val t.isLt h3 r d]
  have he : ((cfg0.win 4).blk t).view.emb (ix3 (0 : Fin 1) r d) = ix3 (bh t.val) r d := by
    funext a
    apply Fin.ext
    match a with
    | ⟨0, _⟩ => show win0_4.index t 0 * 1 + 1 * (0 : Fin 1).val = (bh t.val).val; rw [e0, hb]; simp
    | ⟨1, _⟩ => show win0_4.index t 1 * 2048 + 1 * r.val = r.val; rw [e1]; omega
    | ⟨2, _⟩ => show win0_4.index t 2 * 64 + 1 * d.val = d.val; rw [e2]; omega
  rw [he]
  exact (G_ix3 (arrQ m c) (arrK m c) (arrV m c) (arrM m c) (bh t.val) r d).symm

/-- An index of the result array lies in point `t`'s block iff each coordinate is in the block's range on its axis. -/
theorem mem_blk (t : Fin cfg0.N) (i : S32x2048x64.Idx) :
    i ∈ ((cfg0.win 4).blk t).view.set
      ↔ ∀ a : Fin 3, win0_4.index t a * S1x2048x64.size a ≤ (i a).val
          ∧ (i a).val < win0_4.index t a * S1x2048x64.size a + S1x2048x64.size a := by
  show i ∈ ((View.whole main_v0).slice (win0_4.rect t)).set ↔ _
  rw [View.set_slice_whole, Rect.mem_set_unit]
  exact Iff.rfl

include hQ hK hV hM in
/-- The result array after the run: the last-tile points' slabs cover it. -/
theorem final : (dats m 0 c).arrAt 4 cfg0.N = result m c := by
  have hN : cfg0.N = 128 := N_0
  refine (dats m 0 c).arrAt_eq_of_cover 4 (result m c) (flushed_eq m c hQ hK hV hM) fun i => ?_
  have hi0 : (i 0).val < 32 := (i 0).isLt
  have hi1 : (i 1).val < 2048 := (i 1).isLt
  have hi2 : (i 2).val < 64 := (i 2).isLt
  have ht : 4 * (i 0).val + 3 < cfg0.N := by rw [hN]; omega
  refine ⟨⟨4 * (i 0).val + 3, ht⟩, (Blocks.flush4_iff _).mpr (by show (4 * (i 0).val + 3) % 4 = 3; omega), ?_⟩
  obtain ⟨e0, e1, e2⟩ := idx_out ⟨4 * (i 0).val + 3, ht⟩
  have e0' : win0_4.index ⟨4 * (i 0).val + 3, ht⟩ 0 = (i 0).val := by
    rw [e0]; show (4 * (i 0).val + 3) / 4 = (i 0).val; omega
  rw [mem_blk]
  intro a
  match a with
  | ⟨0, _⟩ => show win0_4.index ⟨4 * (i 0).val + 3, ht⟩ 0 * 1 ≤ (i 0).val ∧ (i 0).val < win0_4.index ⟨4 * (i 0).val + 3, ht⟩ 0 * 1 + 1
              rw [e0']; omega
  | ⟨1, _⟩ => show win0_4.index ⟨4 * (i 0).val + 3, ht⟩ 1 * 2048 ≤ (i 1).val ∧ (i 1).val < win0_4.index ⟨4 * (i 0).val + 3, ht⟩ 1 * 2048 + 2048
              rw [e1]; omega
  | ⟨2, _⟩ => show win0_4.index ⟨4 * (i 0).val + 3, ht⟩ 2 * 64 ≤ (i 2).val ∧ (i 2).val < win0_4.index ⟨4 * (i 0).val + 3, ht⟩ 2 * 64 + 64
              rw [e2]; omega

end

/-- The run, read: under real-valued arguments the result array ends at attention of their real parts, and the four
    argument arrays end unchanged. -/
theorem run
    (hfin : ∀ c : Dev nD, IsReal S32x2048x64 (arrQ m c) ∧ IsReal S32x2048x64 (arrK m c)
      ∧ IsReal S32x2048x64 (arrV m c) ∧ IsReal S32x2048x2048 (arrM m c)) :
    θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono
    (fun r h c => ⟨(h c).1.trans (final m c (hfin c).1 (hfin c).2.1 (hfin c).2.2.1 (hfin c).2.2.2), (h c).2⟩)
    (Cert.KernelIdeal.Value.run_blocks m ρ)

end Cert.KernelIdeal.AttnValue

end
-- ==== Proof.RefValue.lean ====
/-
  The reference at the ideal values, when every entry of the four arrays is a real number: its result is attention of
  the arrays' real parts. The reference forms the scores `(∑ d, q * k) * (1/8) * mask`, subtracts each row's maximum
  `M` (a real number: the largest of 2048 reals), exponentiates, divides by the row's sum and contracts with the values:
  `∑ c, (exp (S c - M) / ∑ j, exp (S j - M)) * v c`, which is the shift-zero form whatever `M` is.
-/
import proofs.«421783_j40716289966518_3_alg».proof.Proof.Gen.ReferenceIdeal.Read
import proofs.«421783_j40716289966518_3_alg».proof.Proof.AttnSpec
import proofs.«421783_j40716289966518_3_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.AttnRef

open Cert.ReferenceIdeal Cert.ReferenceIdeal.Gen Idealize.ShloMosaic Idealize.ShloMosaic.TcCoe Idealize.ShloMosaic.ValueIdx
open Cert.SoftmaxLaw Cert.AttnSpec Finset

/-- The coercion of a finite sum of reals is the sum of the coercions. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The masked, scaled scores of the reference at an index are the real scores. -/
private theorem scores_eq (x0 x1 : (⟨S32x2048x64, .f32⟩ : BufTy).Contents (Elt Ideal))
    (x3 : (⟨S32x2048x2048, .f32⟩ : BufTy).Contents (Elt Ideal))
    (h0 : IsReal S32x2048x64 x0) (h1 : IsReal S32x2048x64 x1) (h3 : IsReal S32x2048x2048 x3)
    (b : Fin 32) (r c : Fin 2048) :
    Cert.ReferenceIdeal.Read.val_main_v3 (F := Ideal) x0 x1 x3 (ix3 b r c)
      = ((score (re3 x0) (re3 x1) (re3 x3) b r c : ℝ) : EReal) := by
  have el : ∀ k : Fin 64, Cert.ReferenceIdeal.Read.lidx_main_v0 (ix3 b r c) k = ix3 b r k := fun k =>
    funext fun a => Fin.ext (by match a with | ⟨0, _⟩ => rfl | ⟨1, _⟩ => rfl | ⟨2, _⟩ => rfl)
  have er : ∀ k : Fin 64, Cert.ReferenceIdeal.Read.ridx_main_v0 (ix3 b r c) k = ix3 b c k := fun k =>
    funext fun a => Fin.ext (by match a with | ⟨0, _⟩ => rfl | ⟨1, _⟩ => rfl | ⟨2, _⟩ => rfl)
  rw [Read.val_main_v3_apply, Read.val_main_v2_apply, Read.val_main_v0_apply, Read.val_main_v1_apply,
    Read.val_main_cst_apply]
  simp only [Ideal.mulf_def, Ideal.ofBits_def, Cert.Consts.ofBits_eighth, el, er]
  rw [re3_spec x3 h3 b r c]
  have hs : ∑ k : Fin 64, x0 (ix3 b r k) * x1 (ix3 b c k)
      = ((∑ k : Fin 64, re3 x0 b r k * re3 x1 b c k : ℝ) : EReal) := by
    rw [coe_sum]
    exact Finset.sum_congr rfl fun k _ => by rw [re3_spec x0 h0 b r k, re3_spec x1 h1 b c k, EReal.coe_mul]
  rw [hs, ← EReal.coe_mul, ← EReal.coe_mul]
  rfl

/-- The word the reference starts a row's maximum from denotes the bottom of the extended reals. -/
private theorem ofBits_neg_inf : Ideal.ofBits .f32 0xFF800000#32 = (⊥ : EReal) := by
  simp [Ideal.ofBits, Ideal.ieee]

/-- The largest of finitely many reals, at least one of them, taken from the bottom, is a real number. -/
private theorem fold_max_real {ι : Type} [Fintype ι] [Nonempty ι] (g : ι → EReal) (hg : ∀ k, ∃ m : ℝ, g k = (m : EReal)) :
    ∃ M : ℝ, (Finset.univ : Finset ι).fold max (⊥ : EReal) g = (M : EReal) := by
  have hlt : (Finset.univ : Finset ι).fold max (⊥ : EReal) g < ⊤ := by
    rw [Finset.fold_max_lt]
    refine ⟨bot_lt_top, fun k _ => ?_⟩
    obtain ⟨m, hm⟩ := hg k
    rw [hm]; exact EReal.coe_lt_top m
  have hgt : ⊥ < (Finset.univ : Finset ι).fold max (⊥ : EReal) g := by
    rw [Finset.lt_fold_max]
    right
    obtain ⟨k⟩ := ‹Nonempty ι›
    obtain ⟨m, hm⟩ := hg k
    exact ⟨k, Finset.mem_univ _, by rw [hm]; exact EReal.bot_lt_coe m⟩
  exact ⟨_, (EReal.coe_toReal hlt.ne hgt.ne').symm⟩

/-- Each row's maximum, as the reference forms it, is a real number. -/
private theorem rowmax_real (x0 x1 : (⟨S32x2048x64, .f32⟩ : BufTy).Contents (Elt Ideal))
    (x3 : (⟨S32x2048x2048, .f32⟩ : BufTy).Contents (Elt Ideal))
    (h0 : IsReal S32x2048x64 x0) (h1 : IsReal S32x2048x64 x1) (h3 : IsReal S32x2048x2048 x3)
    (b : Fin 32) (r : Fin 2048) :
    ∃ M : ℝ, Cert.ReferenceIdeal.Read.val_main_v6 (F := Ideal) x0 x1 x3 (ix2 b r) = (M : EReal) := by
  have hR : S32x2048x2048.Reduces [2] S32x2048 := by decide
  haveI : Nonempty (Fin (S32x2048x2048.size 2)) := ⟨⟨0, by decide⟩⟩
  obtain ⟨M, hM⟩ := fold_max_real
    (Cert.ReferenceIdeal.Read.val_main_v3 (F := Ideal) x0 x1 x3 ∘ hR.lift (ix2 b r)) (fun k => by
      obtain ⟨b', r', c', e⟩ : ∃ (b' : Fin 32) (r' c' : Fin 2048), hR.lift (ix2 b r) k = ix3 b' r' c' :=
        ⟨_, _, _, eq_ix3 _⟩
      exact ⟨_, by rw [Function.comp_apply, e]; exact scores_eq x0 x1 x3 h0 h1 h3 b' r' c'⟩)
  refine ⟨M, ?_⟩
  rw [Read.val_main_v6_apply, Read.val_main_v5_apply, Read.val_main_cst_1_apply]
  unfold Cert.ReferenceIdeal.Read.val_main_v4
  rw [Host.reduce_eq_fold_single FloatOps.maximumf _ _ reducesTo_S32x2048x2048_S32x2048_d2 hR h_S_ (ix2 b r),
    Read.val_main_cst_0_apply]
  simp only [Ideal.ofBits_def, ofBits_neg_inf, Ideal.maximumf_def]
  exact (max_eq_right bot_le).trans hM

/-- The shifted, exponentiated scores of the reference at an index, given the row's maximum as a real number. -/
private theorem expo_eq (x0 x1 : (⟨S32x2048x64, .f32⟩ : BufTy).Contents (Elt Ideal))
    (x3 : (⟨S32x2048x2048, .f32⟩ : BufTy).Contents (Elt Ideal))
    (h0 : IsReal S32x2048x64 x0) (h1 : IsReal S32x2048x64 x1) (h3 : IsReal S32x2048x2048 x3)
    (b : Fin 32) (r : Fin 2048) (M : ℝ)
    (hM : Cert.ReferenceIdeal.Read.val_main_v6 (F := Ideal) x0 x1 x3 (ix2 b r) = (M : EReal)) (c : Fin 2048) :
    Cert.ReferenceIdeal.Read.val_main_v10 (F := Ideal) x0 x1 x3 (ix3 b r c)
      = ((Real.exp (score (re3 x0) (re3 x1) (re3 x3) b r c - M) : ℝ) : EReal) := by
  have e8 : Cert.ReferenceIdeal.Read.idx_main_v8 (ix3 b r c) = ix3 b r (0 : Fin 1) :=
    funext fun a => Fin.ext (by match a with | ⟨0, _⟩ => rfl | ⟨1, _⟩ => rfl | ⟨2, _⟩ => rfl)
  have e7 : Cert.ReferenceIdeal.Read.idx_main_v7 (ix3 b r (0 : Fin 1)) = ix2 b r :=
    funext fun a => Fin.ext (by match a with | ⟨0, _⟩ => rfl | ⟨1, _⟩ => rfl)
  rw [Read.val_main_v10_apply, Read.val_main_v9_apply, Read.val_main_v8_apply, e8, Read.val_main_v7_apply, e7, hM,
    scores_eq x0 x1 x3 h0 h1 h3 b r c]
  simp only [Ideal.subf_def, Ideal.hostUnary_exp_def]
  rw [← EReal.coe_sub, Ideal.exp_coe]

/-- The reference's row sum at an index: the sum of the shifted, exponentiated scores of the row. -/
private theorem rowsum_eq (x0 x1 : (⟨S32x2048x64, .f32⟩ : BufTy).Contents (Elt Ideal))
    (x3 : (⟨S32x2048x2048, .f32⟩ : BufTy).Contents (Elt Ideal))
    (h0 : IsReal S32x2048x64 x0) (h1 : IsReal S32x2048x64 x1) (h3 : IsReal S32x2048x2048 x3)
    (b : Fin 32) (r : Fin 2048) (M : ℝ)
    (hM : Cert.ReferenceIdeal.Read.val_main_v6 (F := Ideal) x0 x1 x3 (ix2 b r) = (M : EReal)) :
    Cert.ReferenceIdeal.Read.val_main_v11 (F := Ideal) x0 x1 x3 (ix2 b r)
      = ((∑ j : Fin 2048, Real.exp (score (re3 x0) (re3 x1) (re3 x3) b r j - M) : ℝ) : EReal) := by
  have e11 : ∀ k : Fin 2048, Cert.ReferenceIdeal.Read.idx_main_v11 (ix2 b r) k = ix3 b r k := fun k =>
    funext fun a => Fin.ext (by match a with | ⟨0, _⟩ => rfl | ⟨1, _⟩ => rfl | ⟨2, _⟩ => rfl)
  rw [Read.val_main_v11_apply, Read.val_main_cst_2_apply]
  simp only [Ideal.ofBits_def, Cert.Consts.ofBits_zero, e11]
  rw [EReal.coe_zero, zero_add, coe_sum]
  exact Finset.sum_congr rfl fun k _ => expo_eq x0 x1 x3 h0 h1 h3 b r M hM k

/-- The reference's normalised weights at an index. -/
private theorem weight_eq (x0 x1 : (⟨S32x2048x64, .f32⟩ : BufTy).Contents (Elt Ideal))
    (x3 : (⟨S32x2048x2048, .f32⟩ : BufTy).Contents (Elt Ideal))
    (h0 : IsReal S32x2048x64 x0) (h1 : IsReal S32x2048x64 x1) (h3 : IsReal S32x2048x2048 x3)
    (b : Fin 32) (r : Fin 2048) (M : ℝ)
    (hM : Cert.ReferenceIdeal.Read.val_main_v6 (F := Ideal) x0 x1 x3 (ix2 b r) = (M : EReal)) (c : Fin 2048) :
    Cert.ReferenceIdeal.Read.val_main_v14 (F := Ideal) x0 x1 x3 (ix3 b r c)
      = ((Real.exp (score (re3 x0) (re3 x1) (re3 x3) b r c - M)
          / (∑ j : Fin 2048, Real.exp (score (re3 x0) (re3 x1) (re3 x3) b r j - M)) : ℝ) : EReal) := by
  have e13 : Cert.ReferenceIdeal.Read.idx_main_v13 (ix3 b r c) = ix3 b r (0 : Fin 1) :=
    funext fun a => Fin.ext (by match a with | ⟨0, _⟩ => rfl | ⟨1, _⟩ => rfl | ⟨2, _⟩ => rfl)
  have e12 : Cert.ReferenceIdeal.Read.idx_main_v12 (ix3 b r (0 : Fin 1)) = ix2 b r :=
    funext fun a => Fin.ext (by match a with | ⟨0, _⟩ => rfl | ⟨1, _⟩ => rfl)
  have hpos : 0 < ∑ j : Fin 2048, Real.exp (score (re3 x0) (re3 x1) (re3 x3) b r j - M) :=
    sum_exp_pos fun j => score (re3 x0) (re3 x1) (re3 x3) b r j - M
  rw [Read.val_main_v14_apply, Read.val_main_v13_apply, e13, Read.val_main_v12_apply, e12,
    rowsum_eq x0 x1 x3 h0 h1 h3 b r M hM, expo_eq x0 x1 x3 h0 h1 h3 b r M hM c]
  simp only [Ideal.hostDivf_def]
  rw [Ideal.div_coe hpos.ne', ← EReal.coe_mul, mul_one_div]

/-- The reference's result is attention of the arrays' real parts. -/
theorem result_eq (x0 x1 x2 : (⟨S32x2048x64, .f32⟩ : BufTy).Contents (Elt Ideal))
    (x3 : (⟨S32x2048x2048, .f32⟩ : BufTy).Contents (Elt Ideal))
    (h0 : IsReal S32x2048x64 x0) (h1 : IsReal S32x2048x64 x1) (h2 : IsReal S32x2048x64 x2) (h3 : IsReal S32x2048x2048 x3) :
    Cert.ReferenceIdeal.Read.val_main_v15 (F := Ideal) x0 x1 x2 x3 = G x0 x1 x2 x3 := by
  funext i
  obtain ⟨b, r, d, rfl⟩ : ∃ (b : Fin 32) (r : Fin 2048) (d : Fin 64), i = ix3 b r d := ⟨_, _, _, eq_ix3 i⟩
  obtain ⟨M, hM⟩ := rowmax_real x0 x1 x3 h0 h1 h3 b r
  have el : ∀ k : Fin 2048, Cert.ReferenceIdeal.Read.lidx_main_v15 (ix3 b r d) k = ix3 b r k := fun k =>
    funext fun a => Fin.ext (by match a with | ⟨0, _⟩ => rfl | ⟨1, _⟩ => rfl | ⟨2, _⟩ => rfl)
  have er : ∀ k : Fin 2048, Cert.ReferenceIdeal.Read.ridx_main_v15 (ix3 b r d) k = ix3 b k d := fun k =>
    funext fun a => Fin.ext (by match a with | ⟨0, _⟩ => rfl | ⟨1, _⟩ => rfl | ⟨2, _⟩ => rfl)
  rw [G_ix3, Read.val_main_v15_apply]
  simp only [el, er]
  unfold attn
  rw [← weights_shift (fun c => score (re3 x0) (re3 x1) (re3 x3) b r c) (fun c => re3 x2 b c d) M, coe_sum]
  exact Finset.sum_congr rfl fun k _ => by
    rw [weight_eq x0 x1 x3 h0 h1 h3 b r M hM k, re3_spec x2 h2 b k d, EReal.coe_mul]

end Cert.ReferenceIdeal.AttnRef

end
-- ==== Proof.Finite.lean ====
/-
  The precondition says that every entry of the four argument arrays has absolute value below `+∞`. At the ideal
  values that is: every entry is a real number.
-/
import proofs.«421783_j40716289966518_3_alg».proof.Pre_finite_inputs
import proofs.«421783_j40716289966518_3_alg».proof.Proof.Gen.Pre_finite_inputs
import proofs.«421783_j40716289966518_3_alg».proof.Proof.AttnSpec
import Idealize.ShloMosaic.Lib.ValueIdx
import Idealize.ShloMosaic.Lib.ReduceAll

noncomputable section

namespace Cert.Finite

open Idealize.ShloMosaic Idealize.ShloMosaic.ValueIdx Cert.AttnSpec

/-- An extended real whose absolute value `max a (-a)` lies strictly below `+∞` is a real number: of the three kinds of
    extended real, `⊤` and `⊥` both have absolute value `⊤`, which is not below `⊤`. -/
private theorem real_of_abs_lt (a : EReal)
    (e : Ideal.cmp .olt (max a (-a)) (Ideal.ofBits .f32 0x7F800000#32) = 1#1) : a = ((a.toReal : ℝ) : EReal) := by
  have hinf : Ideal.ofBits .f32 0x7F800000#32 = (⊤ : EReal) := by simp [Ideal.ofBits, Ideal.ieee]
  rw [hinf] at e
  induction a using EReal.rec with
  | bot => simp [Ideal.cmp] at e
  | coe r => simp
  | top => simp [Ideal.cmp] at e

/-- The shape of a scalar has exactly one index. -/
private theorem subsingleton_scalar : Subsingleton Cert.Pre_finite_inputs.S_.Idx :=
  ⟨fun a b => funext fun d => d.elim0⟩

/-- The conjunction over every entry of `|x i| < +∞`, when it holds, says entry by entry that `x i` is a real number. -/
private theorem isReal_of_all {S : Shape} {axes : List (Fin S.rank)}
    (bc : Cert.Pre_finite_inputs.S_.BroadcastsInDim S (![] : Fin 0 → Fin S.rank))
    (rd : S.ReducesTo axes Cert.Pre_finite_inputs.S_) (h0 : 0 < Cert.Pre_finite_inputs.S_.numel)
    (x : FVec Ideal S .f32) (c : IVec Cert.Pre_finite_inputs.S_ 1) (j : Cert.Pre_finite_inputs.S_.Idx)
    (e : Host.reduce IntOp.andi
        (cmpf .olt (Host.absf x) (broadcastInDim S ![] bc (constant Cert.Pre_finite_inputs.S_ .f32 0x7F800000#32)))
        c rd h0 j = 1#1) :
    IsReal S x := by
  intro i
  haveI := subsingleton_scalar
  exact real_of_abs_lt (x i) (Host.reduce_andi_all _ c rd h0 j e i)

/-- Under the precondition each of the four arrays holds real numbers only. -/
theorem real_of_pre [Cert.Pre_finite_inputs.Facts]
    (x0 x1 x2 : FVec Ideal Cert.Pre_finite_inputs.S32x2048x64 .f32) (x3 : FVec Ideal Cert.Pre_finite_inputs.S32x2048x2048 .f32)
    (h : Cert.Pre_finite_inputs.fn (F := Ideal) x0 x1 x2 x3 = fun _ => 1#1) :
    IsReal Cert.Pre_finite_inputs.S32x2048x64 x0 ∧ IsReal Cert.Pre_finite_inputs.S32x2048x64 x1
      ∧ IsReal Cert.Pre_finite_inputs.S32x2048x64 x2 ∧ IsReal Cert.Pre_finite_inputs.S32x2048x2048 x3 := by
  -- the one word of the result is 1; it is the conjunction of the four arrays' conjunctions, nested to the left
  have h' := congrFun h ValueIdx.ix0
  dsimp only [Cert.Pre_finite_inputs.fn, Cert.Pre_finite_inputs.fn_part1, andi] at h'
  obtain ⟨h012, h3⟩ := IntOp.andi_eq_one.1 h'
  obtain ⟨h01, h2⟩ := IntOp.andi_eq_one.1 h012
  obtain ⟨h0, h1⟩ := IntOp.andi_eq_one.1 h01
  exact ⟨isReal_of_all _ _ _ x0 _ _ h0, isReal_of_all _ _ _ x1 _ _ h1, isReal_of_all _ _ _ x2 _ _ h2,
    isReal_of_all _ _ _ x3 _ _ h3⟩

end Cert.Finite

end
-- ==== Proof.lean ====
/-
  Scaled dot-product attention with a multiplicative mask: a kernel with an online softmax against jnp's softmax.

  For batch-head `b`, query row `r` and feature `d`, with `S c = (∑ d', q b r d' * k b c d') * (1/8) * mask b r c` over the
  2048 keys `c`, the reference computes `∑ c, (exp (S c - M) / ∑ j, exp (S j - M)) * v b c d` with `M` the row's maximum.
  The kernel visits the keys in four tiles of 512 and keeps a running shift, the sum of the weights and the weighted
  sums at that shift, rescaling what it has kept by `exp (old shift - new shift)` at each tile; after the last tile it
  divides. Its shift starts from a large negative finite number instead of from `-∞`, so the shift it ends with need
  not be the row's maximum — and it does not matter: over the reals `(∑ c, exp (S c - μ) * v c) / (∑ c, exp (S c - μ))` is the same
  for every real `μ`, the positive factor `exp (-μ)` cancelling. Both programs therefore compute
  `(∑ c, exp (S c) * v b c d) / (∑ c, exp (S c))`. The precondition is used: the cancellation, and moving the scale `1/8`
  across the sum over `d'`, are laws of real numbers, and the precondition says every entry of the four arrays is one.

  The modules: `SoftmaxLaw` (the laws over the reals), `Consts` (the three float literals), `AttnSpec` (the common
  value), `TileValues` (one tile's stored values entry by entry), `OnlineState` (the kept state and its step),
  `Pieces` and `Blocks` (what a grid point stores and what it reads), `Invariant` (the induction over the grid's
  points), `KernelValue` (the kernel's result array), `RefValue` (the reference's result), `Finite` (the
  precondition read as real-valuedness). The three frames are the generated ones; the kernel's idealization rewrote
  nothing, so there is nothing to preserve.
-/
import proofs.«421783_j40716289966518_3_alg».proof.Defs
import proofs.«421783_j40716289966518_3_alg».proof.Proof.Gen.Kernel
import proofs.«421783_j40716289966518_3_alg».proof.Proof.Gen.Kernel.Skeleton
import proofs.«421783_j40716289966518_3_alg».proof.Proof.Gen.Kernel.Launch
import proofs.«421783_j40716289966518_3_alg».proof.Proof.Gen.Kernel.Points
import proofs.«421783_j40716289966518_3_alg».proof.Proof.Gen.Kernel.Frame
import proofs.«421783_j40716289966518_3_alg».proof.Proof.Gen.KernelIdeal
import proofs.«421783_j40716289966518_3_alg».proof.Proof.Gen.KernelIdeal.Skeleton
import proofs.«421783_j40716289966518_3_alg».proof.Proof.Gen.KernelIdeal.Launch
import proofs.«421783_j40716289966518_3_alg».proof.Proof.Gen.KernelIdeal.Points
import proofs.«421783_j40716289966518_3_alg».proof.Proof.Gen.KernelIdeal.Frame
import proofs.«421783_j40716289966518_3_alg».proof.Proof.Gen.ReferenceIdeal
import proofs.«421783_j40716289966518_3_alg».proof.Proof.Gen.Pre_finite_inputs
import proofs.«421783_j40716289966518_3_alg».proof.Proof.Gen.KernelIdeal.Value
import proofs.«421783_j40716289966518_3_alg».proof.Proof.Gen.ReferenceIdeal.Run
import proofs.«421783_j40716289966518_3_alg».proof.Proof.Gen.ReferenceIdeal.Read
import proofs.«421783_j40716289966518_3_alg».proof.Proof.KernelValue
import proofs.«421783_j40716289966518_3_alg».proof.Proof.RefValue
import proofs.«421783_j40716289966518_3_alg».proof.Proof.Finite
import Idealize.ShloMosaic.Adequacy
import Idealize.ShloMosaic.Init

noncomputable section

namespace Cert.Proof

open Idealize.ShloMosaic Idealize.SL.Sem Cert.AttnSpec

/-- The word-level kernel runs and leaves its arguments unchanged. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference runs and leaves its arguments unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree and are finite, the kernel's result array and the reference's both end at attention of
    the arguments' real parts. -/
theorem algebraic : Cert.algebraic_KernelIdeal_ReferenceIdeal := by
  intro m ρ m' ρ' hpre hagree
  -- the precondition: every entry of the four arrays is a real number
  have hfin := fun c : Dev Cert.KernelIdeal.nD => Cert.Finite.real_of_pre _ _ _ _ (hpre c)
  refine ⟨fun c => Cert.KernelIdeal.AttnValue.result m c, Cert.KernelIdeal.AttnValue.run m ρ hfin, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v15_eq _ _ _ _).trans
    (Cert.ReferenceIdeal.AttnRef.result_eq _ _ _ _ (hfin c).1 (hfin c).2.1 (hfin c).2.2.1 (hfin c).2.2.2)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
